-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v15)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v15) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v16) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x2048x1024 : Shape := ⟨3, ![8, 2048, 1024]⟩
abbrev S1024x1024 : Shape := ⟨2, ![1024, 1024]⟩
abbrev S_ : Shape := ⟨0, ![]⟩

class Facts : Prop where
  bcast_S_S8x2048x1024 : S_.BroadcastsInDim S8x2048x1024 (![] : Fin 0 → Fin S8x2048x1024.rank)
  reducesTo_S8x2048x1024_S_d0_1_2 : S8x2048x1024.ReducesTo [0, 1, 2] S_
  h_S_ : 0 < S_.numel
  bcast_S_S1024x1024 : S_.BroadcastsInDim S1024x1024 (![] : Fin 0 → Fin S1024x1024.rank)
  reducesTo_S1024x1024_S_d0_1 : S1024x1024.ReducesTo [0, 1] S_

variable [Facts]

def fn_part1 {F : FTy → Type} [FloatOps F] (main_arg4 : FVec F S1024x1024 .f32) (main_v13 : IVec S_ 1) (main_v16 : IVec S1024x1024 1) : IVec S_ 1 :=
  let main_c_5 : IVec S_ 1 := constantI S_ 1 1#1
  let main_v17 : IVec S_ 1 := (fun x v => Host.reduce IntOp.andi x v reducesTo_S1024x1024_S_d0_1 h_S_) main_v16 main_c_5
  let main_v18 : IVec S_ 1 := andi main_v13 main_v17
  let main_v19 : FVec F S1024x1024 .f32 := Host.absf main_arg4
  let main_cst_6 : FVec F S_ .f32 := constant S_ .f32 0x7F800000#32
  let main_v20 : FVec F S1024x1024 .f32 := broadcastInDim S1024x1024 ![] bcast_S_S1024x1024 main_cst_6
  let main_v21 : IVec S1024x1024 1 := cmpf .olt main_v19 main_v20
  let main_c_7 : IVec S_ 1 := constantI S_ 1 1#1
  let main_v22 : IVec S_ 1 := (fun x v => Host.reduce IntOp.andi x v reducesTo_S1024x1024_S_d0_1 h_S_) main_v21 main_c_7
  let main_v23 : IVec S_ 1 := andi main_v18 main_v22
  main_v23

def fn {F : FTy → Type} [FloatOps F] (main_arg0 : FVec F S8x2048x1024 .f32) (main_arg1 : FVec F S8x2048x1024 .f32) (main_arg2 : FVec F S8x2048x1024 .f32) (main_arg3 : FVec F S1024x1024 .f32) (main_arg4 : FVec F S1024x1024 .f32) : IVec S_ 1 :=
  let main_v0 : FVec F S8x2048x1024 .f32 := Host.absf main_arg0
  let main_cst : FVec F S_ .f32 := constant S_ .f32 0x7F800000#32
  let main_v1 : FVec F S8x2048x1024 .f32 := broadcastInDim S8x2048x1024 ![] bcast_S_S8x2048x1024 main_cst
  let main_v2 : IVec S8x2048x1024 1 := cmpf .olt main_v0 main_v1
  let main_c : IVec S_ 1 := constantI S_ 1 1#1
  let main_v3 : IVec S_ 1 := (fun x v => Host.reduce IntOp.andi x v reducesTo_S8x2048x1024_S_d0_1_2 h_S_) main_v2 main_c
  let main_v4 : FVec F S8x2048x1024 .f32 := Host.absf main_arg1
  let main_cst_0 : FVec F S_ .f32 := constant S_ .f32 0x7F800000#32
  let main_v5 : FVec F S8x2048x1024 .f32 := broadcastInDim S8x2048x1024 ![] bcast_S_S8x2048x1024 main_cst_0
  let main_v6 : IVec S8x2048x1024 1 := cmpf .olt main_v4 main_v5
  let main_c_1 : IVec S_ 1 := constantI S_ 1 1#1
  let main_v7 : IVec S_ 1 := (fun x v => Host.reduce IntOp.andi x v reducesTo_S8x2048x1024_S_d0_1_2 h_S_) main_v6 main_c_1
  let main_v8 : IVec S_ 1 := andi main_v3 main_v7
  let main_v9 : FVec F S8x2048x1024 .f32 := Host.absf main_arg2
  let main_cst_2 : FVec F S_ .f32 := constant S_ .f32 0x7F800000#32
  let main_v10 : FVec F S8x2048x1024 .f32 := broadcastInDim S8x2048x1024 ![] bcast_S_S8x2048x1024 main_cst_2
  let main_v11 : IVec S8x2048x1024 1 := cmpf .olt main_v9 main_v10
  let main_c_3 : IVec S_ 1 := constantI S_ 1 1#1
  let main_v12 : IVec S_ 1 := (fun x v => Host.reduce IntOp.andi x v reducesTo_S8x2048x1024_S_d0_1_2 h_S_) main_v11 main_c_3
  let main_v13 : IVec S_ 1 := andi main_v8 main_v12
  let main_v14 : FVec F S1024x1024 .f32 := Host.absf main_arg3
  let main_cst_4 : FVec F S_ .f32 := constant S_ .f32 0x7F800000#32
  let main_v15 : FVec F S1024x1024 .f32 := broadcastInDim S1024x1024 ![] bcast_S_S1024x1024 main_cst_4
  let main_v16 : IVec S1024x1024 1 := cmpf .olt main_v14 main_v15
  fn_part1 (F := F) main_arg4 main_v13 main_v16
-- ==== Kernel.lean ====
abbrev S8x2048x1024 : Shape := ⟨3, ![8, 2048, 1024]⟩
abbrev S1024x1024 : Shape := ⟨2, ![1024, 1024]⟩
abbrev S8x1024x1024 : Shape := ⟨3, ![8, 1024, 1024]⟩
abbrev S1x256x1024 : Shape := ⟨3, ![1, 256, 1024]⟩
abbrev S1x1024x1024 : Shape := ⟨3, ![1, 1024, 1024]⟩
abbrev S256x1024 : Shape := ⟨2, ![256, 1024]⟩
abbrev S_ : Shape := ⟨0, ![]⟩

abbrev nBuf : Space → Nat
  | .hbm => 24
  | .vmem => 17
  | .smem => 0
  | _ => 0

abbrev bufTy : (tb : Table) → Fin (tcTables nBuf tb) → BufTy
  | .hbm, ⟨0, _⟩ => ⟨S8x2048x1024, .f32⟩
  | .hbm, ⟨1, _⟩ => ⟨S8x2048x1024, .f32⟩
  | .hbm, ⟨2, _⟩ => ⟨S8x2048x1024, .f32⟩
  | .hbm, ⟨3, _⟩ => ⟨S1024x1024, .f32⟩
  | .hbm, ⟨4, _⟩ => ⟨S1024x1024, .f32⟩
  | .hbm, ⟨5, _⟩ => ⟨S1024x1024, .bf16⟩
  | .hbm, ⟨6, _⟩ => ⟨S1024x1024, .bf16⟩
  | .hbm, ⟨7, _⟩ => ⟨S8x1024x1024, .f32⟩
  | .hbm, ⟨8, _⟩ => ⟨S_, .f32⟩
  | .hbm, ⟨9, _⟩ => ⟨S1024x1024, .f32⟩
  | .hbm, ⟨10, _⟩ => ⟨S_, .f32⟩
  | .hbm, ⟨11, _⟩ => ⟨S1024x1024, .f32⟩
  | .hbm, ⟨12, _⟩ => ⟨S1024x1024, .f32⟩
  | .hbm, ⟨13, _⟩ => ⟨S1x1024x1024, .f32⟩
  | .hbm, ⟨14, _⟩ => ⟨S8x1024x1024, .f32⟩
  | .hbm, ⟨15, _⟩ => ⟨S8x1024x1024, .f32⟩
  | .hbm, ⟨16, _⟩ => ⟨S8x1024x1024, .f32⟩
  | .hbm, ⟨17, _⟩ => ⟨S_, .f32⟩
  | .hbm, ⟨18, _⟩ => ⟨S1024x1024, .f32⟩
  | .hbm, ⟨19, _⟩ => ⟨S1x1024x1024, .f32⟩
  | .hbm, ⟨20, _⟩ => ⟨S8x1024x1024, .f32⟩
  | .hbm, ⟨21, _⟩ => ⟨S8x1024x1024, .f32⟩
  | .hbm, ⟨22, _⟩ => ⟨S8x1024x1024, .bf16⟩
  | .hbm, ⟨23, _⟩ => ⟨S8x2048x1024, .f32⟩
  | .local _ .vmem, ⟨0, _⟩ => ⟨S1x256x1024, .f32⟩
  | .local _ .vmem, ⟨1, _⟩ => ⟨S1x256x1024, .f32⟩
  | .local _ .vmem, ⟨2, _⟩ => ⟨S1x256x1024, .f32⟩
  | .local _ .vmem, ⟨3, _⟩ => ⟨S1x256x1024, .f32⟩
  | .local _ .vmem, ⟨4, _⟩ => ⟨S1x256x1024, .f32⟩
  | .local _ .vmem, ⟨5, _⟩ => ⟨S1x256x1024, .f32⟩
  | .local _ .vmem, ⟨6, _⟩ => ⟨S1024x1024, .bf16⟩
  | .local _ .vmem, ⟨7, _⟩ => ⟨S1024x1024, .bf16⟩
  | .local _ .vmem, ⟨8, _⟩ => ⟨S1x1024x1024, .f32⟩
  | .local _ .vmem, ⟨9, _⟩ => ⟨S1x1024x1024, .f32⟩
  | .local _ .vmem, ⟨10, _⟩ => ⟨S1024x1024, .f32⟩
  | .local _ .vmem, ⟨11, _⟩ => ⟨S1x1024x1024, .f32⟩
  | .local _ .vmem, ⟨12, _⟩ => ⟨S1x1024x1024, .f32⟩
  | .local _ .vmem, ⟨13, _⟩ => ⟨S1x1024x1024, .bf16⟩
  | .local _ .vmem, ⟨14, _⟩ => ⟨S1x1024x1024, .bf16⟩
  | .local _ .vmem, ⟨15, _⟩ => ⟨S1x1024x1024, .f32⟩
  | .local _ .vmem, ⟨16, _⟩ => ⟨S1x1024x1024, .f32⟩
  | _, _ => ⟨S8x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_cst_1 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_scratch0 : Ref sig .tc := ⟨.vmem, 10, rfl⟩
abbrev cc1_stg0_0 : Ref sig .tc := ⟨.vmem, 11, rfl⟩
abbrev cc1_stg0_1 : Ref sig .tc := ⟨.vmem, 12, rfl⟩
abbrev cc1_stg1_0 : Ref sig .tc := ⟨.vmem, 13, rfl⟩
abbrev cc1_stg1_1 : Ref sig .tc := ⟨.vmem, 14, rfl⟩
abbrev cc1_stg2_0 : Ref sig .tc := ⟨.vmem, 15, rfl⟩
abbrev cc1_stg2_1 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9
abbrev cc1_sem0_0 : DmaSem sig := 10
abbrev cc1_sem0_1 : DmaSem sig := 11
abbrev cc1_sem1_0 : DmaSem sig := 12
abbrev cc1_sem1_1 : DmaSem sig := 13
abbrev cc1_sem2_0 : DmaSem sig := 14
abbrev cc1_sem2_1 : DmaSem sig := 15

abbrev nD : Nat := 1
abbrev τ : Topo := Topo.v7x

variable {F : FTy → Type} [FloatOps F]

abbrev grid0 : Pipeline.Grid := ⟨2, ![8, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1x1024x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev grid1 : Pipeline.Grid := ⟨2, ![8, 2], ![false, false]⟩

def cc1_transform_0 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_1 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_2 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage1_0 : Fin 2 → Memref sig .tc .vmem S1x1024x1024 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S1x1024x1024 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false]

abbrev stage1_2 : Fin 2 → Memref sig .tc .vmem S1x1024x1024 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

class Facts₀ : Prop where
  bitsLt_bf16_f32 : FTy.bits .bf16 < FTy.bits .f32
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S1x256x1024_S1x256x1024_0_0_0 : ∀ a, (![0, 0, 0] : Fin 3 → Nat) a + S1x256x1024.size a ≤ S1x256x1024.size a
  h_S1x256x1024 : 0 < S1x256x1024.numel
  shapeCasts_S1x256x1024_S256x1024 : S1x256x1024.ShapeCasts S256x1024
  inb_S1x1024x1024_S1x1024x1024_0_0_0 : ∀ a, (![0, 0, 0] : Fin 3 → Nat) a + S1x1024x1024.size a ≤ S1x1024x1024.size a
  h_S1x1024x1024 : 0 < S1x1024x1024.numel
  shapeCasts_S1x1024x1024_S1024x1024 : S1x1024x1024.ShapeCasts S1024x1024
  shapeCasts_S1024x1024_S1x1024x1024 : S1024x1024.ShapeCasts S1x1024x1024
  reducesTo_S8x1024x1024_S1024x1024_d0 : S8x1024x1024.ReducesTo [0] S1024x1024
  h_S_ : 0 < S_.numel
  bcast_S_S1024x1024 : S_.BroadcastsInDim S1024x1024 (![] : Fin 0 → Fin S1024x1024.rank)
  bcast_S1024x1024_S1x1024x1024_1_2 : S1024x1024.BroadcastsInDim S1x1024x1024 (![1, 2] : Fin 2 → Fin S1x1024x1024.rank)
  bcast_S1x1024x1024_S8x1024x1024_0_1_2 : S1x1024x1024.BroadcastsInDim S8x1024x1024 (![0, 1, 2] : Fin 3 → Fin S8x1024x1024.rank)
  dot_S256x1024_S1024x1024_S256x1024_1_0_0_1_n_n_wf : DotDims.WF S256x1024 S1024x1024 S256x1024 [1] [0] [0] [1] [] []
  dot_S256x1024_S256x1024_S1024x1024_0_0_1_1_n_n_wf : DotDims.WF S256x1024 S256x1024 S1024x1024 [0] [0] [1] [1] [] []
  dot_S1024x1024_S1024x1024_S1024x1024_1_0_0_1_n_n_wf : DotDims.WF S1024x1024 S1024x1024 S1024x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x256x1024.size a ≤ S8x2048x1024.size a
  hwx0_0 : ∀ i : grid0.Coords, EltTy.bits .f32 = 32 ∨ (Rect.block (s := S8x2048x1024) S1x256x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x256x1024.size a ≤ S8x2048x1024.size a
  hwx0_1 : ∀ i : grid0.Coords, EltTy.bits .f32 = 32 ∨ (Rect.block (s := S8x2048x1024) S1x256x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x256x1024.size a ≤ S8x2048x1024.size a
  hwx0_2 : ∀ i : grid0.Coords, EltTy.bits .f32 = 32 ∨ (Rect.block (s := S8x2048x1024) S1x256x1024.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1024x1024.size a ≤ S1024x1024.size a
  hwx0_3 : ∀ i : grid0.Coords, EltTy.bits .bf16 = 32 ∨ (Rect.block (s := S1024x1024) S1024x1024.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1024x1024.size a ≤ S1024x1024.size a
  hwx0_4 : ∀ i : grid0.Coords, EltTy.bits .bf16 = 32 ∨ (Rect.block (s := S1024x1024) S1024x1024.size (cc0_transform_4 i) (hinb0_4 i)).WholeWords (EltTy.packing .bf16)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x1024x1024.size a ≤ S8x1024x1024.size a
  hwx0_5 : ∀ i : grid0.Coords, EltTy.bits .f32 = 32 ∨ (Rect.block (s := S8x1024x1024) S1x1024x1024.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x1024x1024.size a ≤ S8x2048x1024.size a
  hwx1_0 : ∀ i : grid1.Coords, EltTy.bits .f32 = 32 ∨ (Rect.block (s := S8x2048x1024) S1x1024x1024.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1x1024x1024.size a ≤ S8x1024x1024.size a
  hwx1_1 : ∀ i : grid1.Coords, EltTy.bits .bf16 = 32 ∨ (Rect.block (s := S8x1024x1024) S1x1024x1024.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x1024x1024.size a ≤ S8x2048x1024.size a
  hwx1_2 : ∀ i : grid1.Coords, EltTy.bits .f32 = 32 ∨ (Rect.block (s := S8x2048x1024) S1x1024x1024.size (cc1_transform_2 i) (hinb1_2 i)).WholeWords (EltTy.packing .f32)

variable [Facts₀]

def dot_S256x1024_S1024x1024_S256x1024_1_0_0_1_n_n : DotDims S256x1024 S1024x1024 S256x1024 where
  lhsContracting := [1]
  rhsContracting := [0]
  lhsNonContracting := [0]
  rhsNonContracting := [1]
  lhsBatch := []
  rhsBatch := []
  wf := dot_S256x1024_S1024x1024_S256x1024_1_0_0_1_n_n_wf
def dot_S256x1024_S256x1024_S1024x1024_0_0_1_1_n_n : DotDims S256x1024 S256x1024 S1024x1024 where
  lhsContracting := [0]
  rhsContracting := [0]
  lhsNonContracting := [1]
  rhsNonContracting := [1]
  lhsBatch := []
  rhsBatch := []
  wf := dot_S256x1024_S256x1024_S1024x1024_0_0_1_1_n_n_wf
def dot_S1024x1024_S1024x1024_S1024x1024_1_0_0_1_n_n : DotDims S1024x1024 S1024x1024 S1024x1024 where
  lhsContracting := [1]
  rhsContracting := [0]
  lhsNonContracting := [0]
  rhsNonContracting := [1]
  lhsBatch := []
  rhsBatch := []
  wf := dot_S1024x1024_S1024x1024_S1024x1024_1_0_0_1_n_n_wf

abbrev win0_0 : Pipeline.Window sig grid0 :=
  Pipeline.Window.ofSpec (Memref.whole main_arg0) S1x256x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x256x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S1x256x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0) S1024x1024.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v1) S1024x1024.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v2) S1x1024x1024.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_arg2) S1x1024x1024.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v14) S1x1024x1024.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v15) S1x1024x1024.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

class Facts : Prop extends Facts₀ where

variable [Facts]
-- ==== ReferenceIdeal.lean ====
abbrev S8x2048x1024 : Shape := ⟨3, ![8, 2048, 1024]⟩
abbrev S1024x1024 : Shape := ⟨2, ![1024, 1024]⟩
abbrev S8x1024x1024 : Shape := ⟨3, ![8, 1024, 1024]⟩
abbrev S_ : Shape := ⟨0, ![]⟩
abbrev S1x1024x1024 : Shape := ⟨3, ![1, 1024, 1024]⟩

abbrev nBuf : Space → Nat
  | .hbm => 25
  | .vmem => 0
  | .smem => 0
  | _ => 0

abbrev bufTy : (tb : Table) → Fin (tcTables nBuf tb) → BufTy
  | .hbm, ⟨0, _⟩ => ⟨S8x2048x1024, .f32⟩
  | .hbm, ⟨1, _⟩ => ⟨S8x2048x1024, .f32⟩
  | .hbm, ⟨2, _⟩ => ⟨S8x2048x1024, .f32⟩
  | .hbm, ⟨3, _⟩ => ⟨S1024x1024, .f32⟩
  | .hbm, ⟨4, _⟩ => ⟨S1024x1024, .f32⟩
  | .hbm, ⟨5, _⟩ => ⟨S8x2048x1024, .f32⟩
  | .hbm, ⟨6, _⟩ => ⟨S8x2048x1024, .f32⟩
  | .hbm, ⟨7, _⟩ => ⟨S8x2048x1024, .f32⟩
  | .hbm, ⟨8, _⟩ => ⟨S8x2048x1024, .f32⟩
  | .hbm, ⟨9, _⟩ => ⟨S8x1024x1024, .f32⟩
  | .hbm, ⟨10, _⟩ => ⟨S_, .f32⟩
  | .hbm, ⟨11, _⟩ => ⟨S1024x1024, .f32⟩
  | .hbm, ⟨12, _⟩ => ⟨S_, .f32⟩
  | .hbm, ⟨13, _⟩ => ⟨S1024x1024, .f32⟩
  | .hbm, ⟨14, _⟩ => ⟨S1024x1024, .f32⟩
  | .hbm, ⟨15, _⟩ => ⟨S1x1024x1024, .f32⟩
  | .hbm, ⟨16, _⟩ => ⟨S8x1024x1024, .f32⟩
  | .hbm, ⟨17, _⟩ => ⟨S8x1024x1024, .f32⟩
  | .hbm, ⟨18, _⟩ => ⟨S8x1024x1024, .f32⟩
  | .hbm, ⟨19, _⟩ => ⟨S_, .f32⟩
  | .hbm, ⟨20, _⟩ => ⟨S1024x1024, .f32⟩
  | .hbm, ⟨21, _⟩ => ⟨S1x1024x1024, .f32⟩
  | .hbm, ⟨22, _⟩ => ⟨S8x1024x1024, .f32⟩
  | .hbm, ⟨23, _⟩ => ⟨S8x1024x1024, .f32⟩
  | .hbm, ⟨24, _⟩ => ⟨S8x2048x1024, .f32⟩
  | _, _ => ⟨S8x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_cst : Ref sig .tc := ⟨.hbm, 10, rfl⟩
abbrev main_v5 : Ref sig .tc := ⟨.hbm, 11, rfl⟩
abbrev main_cst_0 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_cst_1 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩

abbrev nD : Nat := 1
abbrev τ : Topo := Topo.v7x

variable {F : FTy → Type} [FloatOps F]

class Facts₀ : Prop where
  reducesTo_S8x1024x1024_S1024x1024_d0 : S8x1024x1024.ReducesTo [0] S1024x1024
  h_S_ : 0 < S_.numel
  bcast_S_S1024x1024 : S_.BroadcastsInDim S1024x1024 (![] : Fin 0 → Fin S1024x1024.rank)
  bcast_S1024x1024_S1x1024x1024_1_2 : S1024x1024.BroadcastsInDim S1x1024x1024 (![1, 2] : Fin 2 → Fin S1x1024x1024.rank)
  bcast_S1x1024x1024_S8x1024x1024_0_1_2 : S1x1024x1024.BroadcastsInDim S8x1024x1024 (![0, 1, 2] : Fin 3 → Fin S8x1024x1024.rank)
  dot_S8x2048x1024_S1024x1024_S8x2048x1024_2_0_01_1_n_n_wf : DotDims.WF S8x2048x1024 S1024x1024 S8x2048x1024 [2] [0] [0, 1] [1] [] []
  dot_S8x2048x1024_S8x2048x1024_S8x1024x1024_1_1_2_2_0_0_wf : DotDims.WF S8x2048x1024 S8x2048x1024 S8x1024x1024 [1] [1] [2] [2] [0] [0]
  dot_S8x2048x1024_S8x1024x1024_S8x2048x1024_2_1_1_2_0_0_wf : DotDims.WF S8x2048x1024 S8x1024x1024 S8x2048x1024 [2] [1] [1] [2] [0] [0]

variable [Facts₀]

def dot_S8x2048x1024_S1024x1024_S8x2048x1024_2_0_01_1_n_n : DotDims S8x2048x1024 S1024x1024 S8x2048x1024 where
  lhsContracting := [2]
  rhsContracting := [0]
  lhsNonContracting := [0, 1]
  rhsNonContracting := [1]
  lhsBatch := []
  rhsBatch := []
  wf := dot_S8x2048x1024_S1024x1024_S8x2048x1024_2_0_01_1_n_n_wf
def dot_S8x2048x1024_S8x2048x1024_S8x1024x1024_1_1_2_2_0_0 : DotDims S8x2048x1024 S8x2048x1024 S8x1024x1024 where
  lhsContracting := [1]
  rhsContracting := [1]
  lhsNonContracting := [2]
  rhsNonContracting := [2]
  lhsBatch := [0]
  rhsBatch := [0]
  wf := dot_S8x2048x1024_S8x2048x1024_S8x1024x1024_1_1_2_2_0_0_wf
def dot_S8x2048x1024_S8x1024x1024_S8x2048x1024_2_1_1_2_0_0 : DotDims S8x2048x1024 S8x1024x1024 S8x2048x1024 where
  lhsContracting := [2]
  rhsContracting := [1]
  lhsNonContracting := [1]
  rhsNonContracting := [2]
  lhsBatch := [0]
  rhsBatch := [0]
  wf := dot_S8x2048x1024_S8x1024x1024_S8x2048x1024_2_1_1_2_0_0_wf

class Facts : Prop extends Facts₀ where

variable [Facts]
-- ==== Proof.KIGrid.lean ====
/-
  The first kernel's grid and the reset test of its body. The body zeroes its accumulator exactly when the second
  grid coordinate (the position along the contracted axis) is 0: over the 8 x 8 grid in row-major order, at the
  points whose number is a multiple of 8.
-/
import proofs.«103711_j49082886259369_1_alg».proof.Proof.Gen.KernelIdeal.Launch
import proofs.«103711_j49082886259369_1_alg».proof.Proof.Gen.KernelIdeal.Skeleton
import proofs.«103711_j49082886259369_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Facts₀ Cert.KernelIdeal.Facts

variable {F : FTy → Type} [FloatOps F]

local notation "𝕄" => MT nD τ sig Unit (Elt F) ℕ (UR sig nD τ) ℕ

/-- The body's reset test, from the grid coordinates. -/
abbrev resetAt (i : grid0.Coords) : Prop :=
  (Scalar.cmpi .ne (Scalar.extui (Scalar.cmpi .eq (BitVec.ofNat 32 (i 1).val) 0#32)) 0#32) = 1#1

/-- It holds exactly at the points that start a row of the grid. -/
theorem resetAt_iff : ∀ t : Fin cfg0.N, resetAt (grid0.coords t) ↔ t.val % 8 = 0 :=
  (by decide +kernel : ∀ t : Fin grid0.N, resetAt (grid0.coords t) ↔ t.val % 8 = 0)

/-- The accumulator scratch as a memref, and the view through which its contents are stated. -/
abbrev accM : Memref sig .tc .vmem S1024x1024 .f32 := Memref.whole cc0_scratch0
abbrev accV : View sig .tc .vmem S1024x1024 .f32 := accM.view
/-- One staging buffer of the first kernel's output window, through which its contents are stated. -/
abbrev outV0 : View sig .tc .vmem S1x1024x1024 .f32 := (Memref.whole cc0_stg5_0 : Memref sig .tc .vmem S1x1024x1024 .f32).view

end Cert.KernelIdeal.Hand

end
-- ==== Proof.KIRunA.lean ====
/-
  The first kernel's body run whole in the case where the accumulator is zeroed first (the first block of a row of the grid): on whole staging
  buffers holding the three row blocks and the two weight matrices, it ends with the inputs as they were and with the
  accumulator scratch and the output's staging buffer each holding the pieces its stores wrote (the witnesses found by
  running the body).
-/
import proofs.«103711_j49082886259369_1_alg».proof.Proof.KIGrid

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Facts₀ Cert.KernelIdeal.Facts

variable {F : FTy → Type} [FloatOps F]

local notation "𝕄" => MT nD τ sig Unit (Elt F) ℕ (UR sig nD τ) ℕ

set_option maxHeartbeats 4000000 in
/-- The pieces the body's stores leave in the output window's staging buffer and in the accumulator scratch, with the
    body's triple over them. -/
noncomputable def bodyRunA (c : Dev nD) (i : grid0.Coords) (arg2 : Memref sig .tc .vmem S1x256x1024 .f32) (harg2 : arg2.IsWhole) (arg3 : Memref sig .tc .vmem S1x256x1024 .f32) (harg3 : arg3.IsWhole) (arg4 : Memref sig .tc .vmem S1x256x1024 .f32) (harg4 : arg4.IsWhole) (arg5 : Memref sig .tc .vmem S1024x1024 .bf16) (harg5 : arg5.IsWhole) (arg6 : Memref sig .tc .vmem S1024x1024 .bf16) (harg6 : arg6.IsWhole) (arg7 : Memref sig .tc .vmem S1x1024x1024 .f32) (harg7 : arg7.IsWhole) (arg8 : Memref sig .tc .vmem S1024x1024 .f32) (harg8 : arg8.IsWhole) (hc0 : resetAt i)
    (x0 : Vec F S1x256x1024 .f32) (x1 : Vec F S1x256x1024 .f32) (x2 : Vec F S1x256x1024 .f32) (x3 : Vec F S1024x1024 .bf16) (x4 : Vec F S1024x1024 .bf16) :
    Σ' (L5 : List (View.Piece (Elt F) S1x1024x1024 .f32)), { LS : List (View.Piece (Elt F) S1024x1024 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ d, owns (c : Thread nD τ) arg7 fullShare d) ∗ (∃ d, owns (c : Thread nD τ) arg8 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ f, arg7.view.loc (c : Thread nD τ) ↦[arg7.view.set]{fullShare} arg7.view.writes (Elt F) f L5) ∗ (∃ f, arg8.view.loc (c : Thread nD τ) ↦[arg8.view.set]{fullShare} arg8.view.writes (Elt F) f LS)) -∗ K ⟨⟩))
          ⊢ wp frame (wpE (defs₀ (F := F)) Variants.none c none) E (cc0__fac_score_kernel i arg2 harg2 arg3 harg3 arg4 harg4 arg5 harg5 arg6 harg6 arg7 harg7 arg8 harg8) K } := by
  refine ⟨?_, ?_, fun E K => ?run⟩
  case run =>
    simp only [cc0__fac_score_kernel_eq_skeleton]; unfold cc0__fac_score_kernel_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%ds, %fs, -, HS⟩, Hk⟩
    obtain rfl := harg2.eq_unread hf0; obtain rfl := harg3.eq_unread hf1; obtain rfl := harg4.eq_unread hf2
    obtain rfl := harg5.eq_unread hf3; obtain rfl := harg6.eq_unread hf4
    sl_exec (disch := first | exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]; · iexists _; iexact H5
    iexists _; iexact HS

end Cert.KernelIdeal.Hand

end
-- ==== Proof.KIRunB.lean ====
/-
  The first kernel's body run whole in the case where the accumulator is carried from the point before (a later block of a row of the grid): on whole staging
  buffers holding the three row blocks and the two weight matrices, it ends with the inputs as they were and with the
  accumulator scratch and the output's staging buffer each holding the pieces its stores wrote (the witnesses found by
  running the body).
-/
import proofs.«103711_j49082886259369_1_alg».proof.Proof.KIRunA

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Facts₀ Cert.KernelIdeal.Facts

variable {F : FTy → Type} [FloatOps F]

local notation "𝕄" => MT nD τ sig Unit (Elt F) ℕ (UR sig nD τ) ℕ

set_option maxHeartbeats 4000000 in
/-- The pieces the body's stores leave in the output window's staging buffer and in the accumulator scratch, with the
    body's triple over them. -/
noncomputable def bodyRunB (c : Dev nD) (i : grid0.Coords) (arg2 : Memref sig .tc .vmem S1x256x1024 .f32) (harg2 : arg2.IsWhole) (arg3 : Memref sig .tc .vmem S1x256x1024 .f32) (harg3 : arg3.IsWhole) (arg4 : Memref sig .tc .vmem S1x256x1024 .f32) (harg4 : arg4.IsWhole) (arg5 : Memref sig .tc .vmem S1024x1024 .bf16) (harg5 : arg5.IsWhole) (arg6 : Memref sig .tc .vmem S1024x1024 .bf16) (harg6 : arg6.IsWhole) (arg7 : Memref sig .tc .vmem S1x1024x1024 .f32) (harg7 : arg7.IsWhole) (arg8 : Memref sig .tc .vmem S1024x1024 .f32) (harg8 : arg8.IsWhole) (hc0 : ¬resetAt i)
    (x0 : Vec F S1x256x1024 .f32) (x1 : Vec F S1x256x1024 .f32) (x2 : Vec F S1x256x1024 .f32) (x3 : Vec F S1024x1024 .bf16) (x4 : Vec F S1024x1024 .bf16) (xs : Vec F S1024x1024 .f32) :
    Σ' (L5 : List (View.Piece (Elt F) S1x1024x1024 .f32)), { LS : List (View.Piece (Elt F) S1024x1024 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ d, owns (c : Thread nD τ) arg7 fullShare d) ∗ owns (c : Thread nD τ) arg8 fullShare xs
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ f, arg7.view.loc (c : Thread nD τ) ↦[arg7.view.set]{fullShare} arg7.view.writes (Elt F) f L5) ∗ (∃ f, arg8.view.loc (c : Thread nD τ) ↦[arg8.view.set]{fullShare} arg8.view.writes (Elt F) f LS)) -∗ K ⟨⟩))
          ⊢ wp frame (wpE (defs₀ (F := F)) Variants.none c none) E (cc0__fac_score_kernel i arg2 harg2 arg3 harg3 arg4 harg4 arg5 harg5 arg6 harg6 arg7 harg7 arg8 harg8) K } := by
  refine ⟨?_, ?_, fun E K => ?run⟩
  case run =>
    simp only [cc0__fac_score_kernel_eq_skeleton]; unfold cc0__fac_score_kernel_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%fs, %hfs, HS⟩, Hk⟩
    obtain rfl := harg2.eq_unread hf0; obtain rfl := harg3.eq_unread hf1; obtain rfl := harg4.eq_unread hf2
    obtain rfl := harg5.eq_unread hf3; obtain rfl := harg6.eq_unread hf4; obtain rfl := harg8.eq_unread hfs
    sl_exec (disch := first | exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]; · iexists _; iexact H5
    iexists _; iexact HS

end Cert.KernelIdeal.Hand

end
-- ==== Proof.KIDat0.lean ====
/-
  The first kernel, point by point. Its grid is 8 batches by 8 row blocks; the accumulator scratch is zeroed at the first
  row block of a batch and afterwards holds the running sum of the blocks' products, and the output window's staging
  buffer holds a copy of the accumulator after every point. This module states what the scratch and the staging buffer
  hold after each point (by recursion on the point), the region's invariant carrying the scratch from point to point,
  the proof data, and the body obligation at every point.
-/
import proofs.«103711_j49082886259369_1_alg».proof.Proof.KIRunB

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Facts₀ Cert.KernelIdeal.Facts

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-! ## Each input's staging buffer holds its block at every point, fetched there or not -/

theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)

/-! ## The frame invariant with the scratch as a memref -/

theorem PhiA0_eq (c : Dev nD) :
    (Pipeline.ΦA spec0 c : sProp 𝕄)
      = iprop(iprop((∃ d, owns (c : Thread nD τ) accM fullShare d) ∗ (∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f)) ∗ (∃ r, prngReg c r)) := by
  unfold Pipeline.ΦA; rw [scopedRest0_eq]; simp only [accM, owns_whole]; try rfl

/-- The scoped buffers of the other kernel, each at some contents: what rides along unread. -/
abbrev others0 (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f))

/-! ## What each case leaves: the found pieces read back -/

theorem coverA_5 (c : Dev nD) (i : grid0.Coords) (arg2 : Memref sig .tc .vmem S1x256x1024 .f32) (harg2 : arg2.IsWhole) (arg3 : Memref sig .tc .vmem S1x256x1024 .f32) (harg3 : arg3.IsWhole) (arg4 : Memref sig .tc .vmem S1x256x1024 .f32) (harg4 : arg4.IsWhole) (arg5 : Memref sig .tc .vmem S1024x1024 .bf16) (harg5 : arg5.IsWhole) (arg6 : Memref sig .tc .vmem S1024x1024 .bf16) (harg6 : arg6.IsWhole) (arg7 : Memref sig .tc .vmem S1x1024x1024 .f32) (harg7 : arg7.IsWhole) (arg8 : Memref sig .tc .vmem S1024x1024 .f32) (harg8 : arg8.IsWhole) (hc0 : resetAt i)
    (x0 : Vec F S1x256x1024 .f32) (x1 : Vec F S1x256x1024 .f32) (x2 : Vec F S1x256x1024 .f32) (x3 : Vec F S1024x1024 .bf16) (x4 : Vec F S1024x1024 .bf16) (y : S1x1024x1024.Idx) :
    ∃ pc ∈ (bodyRunA c i arg2 harg2 arg3 harg3 arg4 harg4 arg5 harg5 arg6 harg6 arg7 harg7 arg8 harg8 hc0 x0 x1 x2 x3 x4).1, y ∈ pc.1.set :=
  View.cover_of_tiledL _ S1x1024x1024.size (by sl_kernel_rfl) y

def outA_5 (c : Dev nD) (i : grid0.Coords) (arg2 : Memref sig .tc .vmem S1x256x1024 .f32) (harg2 : arg2.IsWhole) (arg3 : Memref sig .tc .vmem S1x256x1024 .f32) (harg3 : arg3.IsWhole) (arg4 : Memref sig .tc .vmem S1x256x1024 .f32) (harg4 : arg4.IsWhole) (arg5 : Memref sig .tc .vmem S1024x1024 .bf16) (harg5 : arg5.IsWhole) (arg6 : Memref sig .tc .vmem S1024x1024 .bf16) (harg6 : arg6.IsWhole) (arg7 : Memref sig .tc .vmem S1x1024x1024 .f32) (harg7 : arg7.IsWhole) (arg8 : Memref sig .tc .vmem S1024x1024 .f32) (harg8 : arg8.IsWhole) (hc0 : resetAt i)
    (x0 : Vec F S1x256x1024 .f32) (x1 : Vec F S1x256x1024 .f32) (x2 : Vec F S1x256x1024 .f32) (x3 : Vec F S1024x1024 .bf16) (x4 : Vec F S1024x1024 .bf16) : Vec F S1x1024x1024 .f32 :=
  outV0.read (Elt F) (outV0.writes (Elt F) outV0.junk (bodyRunA c i arg2 harg2 arg3 harg3 arg4 harg4 arg5 harg5 arg6 harg6 arg7 harg7 arg8 harg8 hc0 x0 x1 x2 x3 x4).1)

theorem scoverA (c : Dev nD) (i : grid0.Coords) (arg2 : Memref sig .tc .vmem S1x256x1024 .f32) (harg2 : arg2.IsWhole) (arg3 : Memref sig .tc .vmem S1x256x1024 .f32) (harg3 : arg3.IsWhole) (arg4 : Memref sig .tc .vmem S1x256x1024 .f32) (harg4 : arg4.IsWhole) (arg5 : Memref sig .tc .vmem S1024x1024 .bf16) (harg5 : arg5.IsWhole) (arg6 : Memref sig .tc .vmem S1024x1024 .bf16) (harg6 : arg6.IsWhole) (arg7 : Memref sig .tc .vmem S1x1024x1024 .f32) (harg7 : arg7.IsWhole) (arg8 : Memref sig .tc .vmem S1024x1024 .f32) (harg8 : arg8.IsWhole) (hc0 : resetAt i)
    (x0 : Vec F S1x256x1024 .f32) (x1 : Vec F S1x256x1024 .f32) (x2 : Vec F S1x256x1024 .f32) (x3 : Vec F S1024x1024 .bf16) (x4 : Vec F S1024x1024 .bf16) (y : S1024x1024.Idx) :
    ∃ pc ∈ (bodyRunA c i arg2 harg2 arg3 harg3 arg4 harg4 arg5 harg5 arg6 harg6 arg7 harg7 arg8 harg8 hc0 x0 x1 x2 x3 x4).2.1, y ∈ pc.1.set :=
  View.cover_of_tiledL _ S1024x1024.size (by sl_kernel_rfl) y

def soutA (c : Dev nD) (i : grid0.Coords) (arg2 : Memref sig .tc .vmem S1x256x1024 .f32) (harg2 : arg2.IsWhole) (arg3 : Memref sig .tc .vmem S1x256x1024 .f32) (harg3 : arg3.IsWhole) (arg4 : Memref sig .tc .vmem S1x256x1024 .f32) (harg4 : arg4.IsWhole) (arg5 : Memref sig .tc .vmem S1024x1024 .bf16) (harg5 : arg5.IsWhole) (arg6 : Memref sig .tc .vmem S1024x1024 .bf16) (harg6 : arg6.IsWhole) (arg7 : Memref sig .tc .vmem S1x1024x1024 .f32) (harg7 : arg7.IsWhole) (arg8 : Memref sig .tc .vmem S1024x1024 .f32) (harg8 : arg8.IsWhole) (hc0 : resetAt i)
    (x0 : Vec F S1x256x1024 .f32) (x1 : Vec F S1x256x1024 .f32) (x2 : Vec F S1x256x1024 .f32) (x3 : Vec F S1024x1024 .bf16) (x4 : Vec F S1024x1024 .bf16) : Vec F S1024x1024 .f32 :=
  accV.read (Elt F) (accV.writes (Elt F) accV.junk (bodyRunA c i arg2 harg2 arg3 harg3 arg4 harg4 arg5 harg5 arg6 harg6 arg7 harg7 arg8 harg8 hc0 x0 x1 x2 x3 x4).2.1)

theorem coverB_5 (c : Dev nD) (i : grid0.Coords) (arg2 : Memref sig .tc .vmem S1x256x1024 .f32) (harg2 : arg2.IsWhole) (arg3 : Memref sig .tc .vmem S1x256x1024 .f32) (harg3 : arg3.IsWhole) (arg4 : Memref sig .tc .vmem S1x256x1024 .f32) (harg4 : arg4.IsWhole) (arg5 : Memref sig .tc .vmem S1024x1024 .bf16) (harg5 : arg5.IsWhole) (arg6 : Memref sig .tc .vmem S1024x1024 .bf16) (harg6 : arg6.IsWhole) (arg7 : Memref sig .tc .vmem S1x1024x1024 .f32) (harg7 : arg7.IsWhole) (arg8 : Memref sig .tc .vmem S1024x1024 .f32) (harg8 : arg8.IsWhole) (hc0 : ¬resetAt i)
    (x0 : Vec F S1x256x1024 .f32) (x1 : Vec F S1x256x1024 .f32) (x2 : Vec F S1x256x1024 .f32) (x3 : Vec F S1024x1024 .bf16) (x4 : Vec F S1024x1024 .bf16) (xs : Vec F S1024x1024 .f32) (y : S1x1024x1024.Idx) :
    ∃ pc ∈ (bodyRunB c i arg2 harg2 arg3 harg3 arg4 harg4 arg5 harg5 arg6 harg6 arg7 harg7 arg8 harg8 hc0 x0 x1 x2 x3 x4 xs).1, y ∈ pc.1.set :=
  View.cover_of_tiledL _ S1x1024x1024.size (by sl_kernel_rfl) y

def outB_5 (c : Dev nD) (i : grid0.Coords) (arg2 : Memref sig .tc .vmem S1x256x1024 .f32) (harg2 : arg2.IsWhole) (arg3 : Memref sig .tc .vmem S1x256x1024 .f32) (harg3 : arg3.IsWhole) (arg4 : Memref sig .tc .vmem S1x256x1024 .f32) (harg4 : arg4.IsWhole) (arg5 : Memref sig .tc .vmem S1024x1024 .bf16) (harg5 : arg5.IsWhole) (arg6 : Memref sig .tc .vmem S1024x1024 .bf16) (harg6 : arg6.IsWhole) (arg7 : Memref sig .tc .vmem S1x1024x1024 .f32) (harg7 : arg7.IsWhole) (arg8 : Memref sig .tc .vmem S1024x1024 .f32) (harg8 : arg8.IsWhole) (hc0 : ¬resetAt i)
    (x0 : Vec F S1x256x1024 .f32) (x1 : Vec F S1x256x1024 .f32) (x2 : Vec F S1x256x1024 .f32) (x3 : Vec F S1024x1024 .bf16) (x4 : Vec F S1024x1024 .bf16) (xs : Vec F S1024x1024 .f32) : Vec F S1x1024x1024 .f32 :=
  outV0.read (Elt F) (outV0.writes (Elt F) outV0.junk (bodyRunB c i arg2 harg2 arg3 harg3 arg4 harg4 arg5 harg5 arg6 harg6 arg7 harg7 arg8 harg8 hc0 x0 x1 x2 x3 x4 xs).1)

theorem scoverB (c : Dev nD) (i : grid0.Coords) (arg2 : Memref sig .tc .vmem S1x256x1024 .f32) (harg2 : arg2.IsWhole) (arg3 : Memref sig .tc .vmem S1x256x1024 .f32) (harg3 : arg3.IsWhole) (arg4 : Memref sig .tc .vmem S1x256x1024 .f32) (harg4 : arg4.IsWhole) (arg5 : Memref sig .tc .vmem S1024x1024 .bf16) (harg5 : arg5.IsWhole) (arg6 : Memref sig .tc .vmem S1024x1024 .bf16) (harg6 : arg6.IsWhole) (arg7 : Memref sig .tc .vmem S1x1024x1024 .f32) (harg7 : arg7.IsWhole) (arg8 : Memref sig .tc .vmem S1024x1024 .f32) (harg8 : arg8.IsWhole) (hc0 : ¬resetAt i)
    (x0 : Vec F S1x256x1024 .f32) (x1 : Vec F S1x256x1024 .f32) (x2 : Vec F S1x256x1024 .f32) (x3 : Vec F S1024x1024 .bf16) (x4 : Vec F S1024x1024 .bf16) (xs : Vec F S1024x1024 .f32) (y : S1024x1024.Idx) :
    ∃ pc ∈ (bodyRunB c i arg2 harg2 arg3 harg3 arg4 harg4 arg5 harg5 arg6 harg6 arg7 harg7 arg8 harg8 hc0 x0 x1 x2 x3 x4 xs).2.1, y ∈ pc.1.set :=
  View.cover_of_tiledL _ S1024x1024.size (by sl_kernel_rfl) y

def soutB (c : Dev nD) (i : grid0.Coords) (arg2 : Memref sig .tc .vmem S1x256x1024 .f32) (harg2 : arg2.IsWhole) (arg3 : Memref sig .tc .vmem S1x256x1024 .f32) (harg3 : arg3.IsWhole) (arg4 : Memref sig .tc .vmem S1x256x1024 .f32) (harg4 : arg4.IsWhole) (arg5 : Memref sig .tc .vmem S1024x1024 .bf16) (harg5 : arg5.IsWhole) (arg6 : Memref sig .tc .vmem S1024x1024 .bf16) (harg6 : arg6.IsWhole) (arg7 : Memref sig .tc .vmem S1x1024x1024 .f32) (harg7 : arg7.IsWhole) (arg8 : Memref sig .tc .vmem S1024x1024 .f32) (harg8 : arg8.IsWhole) (hc0 : ¬resetAt i)
    (x0 : Vec F S1x256x1024 .f32) (x1 : Vec F S1x256x1024 .f32) (x2 : Vec F S1x256x1024 .f32) (x3 : Vec F S1024x1024 .bf16) (x4 : Vec F S1024x1024 .bf16) (xs : Vec F S1024x1024 .f32) : Vec F S1024x1024 .f32 :=
  accV.read (Elt F) (accV.writes (Elt F) accV.junk (bodyRunB c i arg2 harg2 arg3 harg3 arg4 harg4 arg5 harg5 arg6 harg6 arg7 harg7 arg8 harg8 hc0 x0 x1 x2 x3 x4 xs).2.1)

/-! ## What the output's staging buffer and the scratch hold after each point -/

/-- After the body at position `n`: the output window's staging buffer and the accumulator scratch — the reset case at
    the first row block of a batch, else the carrying case over what the point before left in the scratch. -/
def outsAt0 (c : Dev nD) : (n : ℕ) → n < cfg0.N → Vec F S1x1024x1024 .f32 × Vec F S1024x1024 .f32
  | 0, hn => (outA_5 c (grid0.coords ⟨0, hn⟩) (st0_0 ⟨0, hn⟩) (Facts₀.hstage0_0 ((cfg0.slots ⟨0, hn⟩ 0).cast Facts₀.nbuf0_0)) (st0_1 ⟨0, hn⟩) (Facts₀.hstage0_1 ((cfg0.slots ⟨0, hn⟩ 1).cast Facts₀.nbuf0_1)) (st0_2 ⟨0, hn⟩) (Facts₀.hstage0_2 ((cfg0.slots ⟨0, hn⟩ 2).cast Facts₀.nbuf0_2)) (st0_3 ⟨0, hn⟩) (Facts₀.hstage0_3 ((cfg0.slots ⟨0, hn⟩ 3).cast Facts₀.nbuf0_3)) (st0_4 ⟨0, hn⟩) (Facts₀.hstage0_4 ((cfg0.slots ⟨0, hn⟩ 4).cast Facts₀.nbuf0_4)) (st0_5 ⟨0, hn⟩) (Facts₀.hstage0_5 ((cfg0.slots ⟨0, hn⟩ 5).cast Facts₀.nbuf0_5)) accM (Memref.isWhole_whole _) ((resetAt_iff ⟨0, hn⟩).mpr (Nat.zero_mod _)) (iblk0 V c 0 ⟨0, hn⟩) (iblk0 V c 1 ⟨0, hn⟩) (iblk0 V c 2 ⟨0, hn⟩) (iblk0 V c 3 ⟨0, hn⟩) (iblk0 V c 4 ⟨0, hn⟩),
      soutA c (grid0.coords ⟨0, hn⟩) (st0_0 ⟨0, hn⟩) (Facts₀.hstage0_0 ((cfg0.slots ⟨0, hn⟩ 0).cast Facts₀.nbuf0_0)) (st0_1 ⟨0, hn⟩) (Facts₀.hstage0_1 ((cfg0.slots ⟨0, hn⟩ 1).cast Facts₀.nbuf0_1)) (st0_2 ⟨0, hn⟩) (Facts₀.hstage0_2 ((cfg0.slots ⟨0, hn⟩ 2).cast Facts₀.nbuf0_2)) (st0_3 ⟨0, hn⟩) (Facts₀.hstage0_3 ((cfg0.slots ⟨0, hn⟩ 3).cast Facts₀.nbuf0_3)) (st0_4 ⟨0, hn⟩) (Facts₀.hstage0_4 ((cfg0.slots ⟨0, hn⟩ 4).cast Facts₀.nbuf0_4)) (st0_5 ⟨0, hn⟩) (Facts₀.hstage0_5 ((cfg0.slots ⟨0, hn⟩ 5).cast Facts₀.nbuf0_5)) accM (Memref.isWhole_whole _) ((resetAt_iff ⟨0, hn⟩).mpr (Nat.zero_mod _)) (iblk0 V c 0 ⟨0, hn⟩) (iblk0 V c 1 ⟨0, hn⟩) (iblk0 V c 2 ⟨0, hn⟩) (iblk0 V c 3 ⟨0, hn⟩) (iblk0 V c 4 ⟨0, hn⟩))
  | n + 1, hn =>
    if h0 : (n + 1) % 8 = 0 then
      (outA_5 c (grid0.coords ⟨n + 1, hn⟩) (st0_0 ⟨n + 1, hn⟩) (Facts₀.hstage0_0 ((cfg0.slots ⟨n + 1, hn⟩ 0).cast Facts₀.nbuf0_0)) (st0_1 ⟨n + 1, hn⟩) (Facts₀.hstage0_1 ((cfg0.slots ⟨n + 1, hn⟩ 1).cast Facts₀.nbuf0_1)) (st0_2 ⟨n + 1, hn⟩) (Facts₀.hstage0_2 ((cfg0.slots ⟨n + 1, hn⟩ 2).cast Facts₀.nbuf0_2)) (st0_3 ⟨n + 1, hn⟩) (Facts₀.hstage0_3 ((cfg0.slots ⟨n + 1, hn⟩ 3).cast Facts₀.nbuf0_3)) (st0_4 ⟨n + 1, hn⟩) (Facts₀.hstage0_4 ((cfg0.slots ⟨n + 1, hn⟩ 4).cast Facts₀.nbuf0_4)) (st0_5 ⟨n + 1, hn⟩) (Facts₀.hstage0_5 ((cfg0.slots ⟨n + 1, hn⟩ 5).cast Facts₀.nbuf0_5)) accM (Memref.isWhole_whole _) ((resetAt_iff ⟨n + 1, hn⟩).mpr h0) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩),
        soutA c (grid0.coords ⟨n + 1, hn⟩) (st0_0 ⟨n + 1, hn⟩) (Facts₀.hstage0_0 ((cfg0.slots ⟨n + 1, hn⟩ 0).cast Facts₀.nbuf0_0)) (st0_1 ⟨n + 1, hn⟩) (Facts₀.hstage0_1 ((cfg0.slots ⟨n + 1, hn⟩ 1).cast Facts₀.nbuf0_1)) (st0_2 ⟨n + 1, hn⟩) (Facts₀.hstage0_2 ((cfg0.slots ⟨n + 1, hn⟩ 2).cast Facts₀.nbuf0_2)) (st0_3 ⟨n + 1, hn⟩) (Facts₀.hstage0_3 ((cfg0.slots ⟨n + 1, hn⟩ 3).cast Facts₀.nbuf0_3)) (st0_4 ⟨n + 1, hn⟩) (Facts₀.hstage0_4 ((cfg0.slots ⟨n + 1, hn⟩ 4).cast Facts₀.nbuf0_4)) (st0_5 ⟨n + 1, hn⟩) (Facts₀.hstage0_5 ((cfg0.slots ⟨n + 1, hn⟩ 5).cast Facts₀.nbuf0_5)) accM (Memref.isWhole_whole _) ((resetAt_iff ⟨n + 1, hn⟩).mpr h0) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩))
    else
      (outB_5 c (grid0.coords ⟨n + 1, hn⟩) (st0_0 ⟨n + 1, hn⟩) (Facts₀.hstage0_0 ((cfg0.slots ⟨n + 1, hn⟩ 0).cast Facts₀.nbuf0_0)) (st0_1 ⟨n + 1, hn⟩) (Facts₀.hstage0_1 ((cfg0.slots ⟨n + 1, hn⟩ 1).cast Facts₀.nbuf0_1)) (st0_2 ⟨n + 1, hn⟩) (Facts₀.hstage0_2 ((cfg0.slots ⟨n + 1, hn⟩ 2).cast Facts₀.nbuf0_2)) (st0_3 ⟨n + 1, hn⟩) (Facts₀.hstage0_3 ((cfg0.slots ⟨n + 1, hn⟩ 3).cast Facts₀.nbuf0_3)) (st0_4 ⟨n + 1, hn⟩) (Facts₀.hstage0_4 ((cfg0.slots ⟨n + 1, hn⟩ 4).cast Facts₀.nbuf0_4)) (st0_5 ⟨n + 1, hn⟩) (Facts₀.hstage0_5 ((cfg0.slots ⟨n + 1, hn⟩ 5).cast Facts₀.nbuf0_5)) accM (Memref.isWhole_whole _) (fun h => h0 ((resetAt_iff ⟨n + 1, hn⟩).mp h)) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (outsAt0 c n (Nat.lt_of_succ_lt hn)).2,
        soutB c (grid0.coords ⟨n + 1, hn⟩) (st0_0 ⟨n + 1, hn⟩) (Facts₀.hstage0_0 ((cfg0.slots ⟨n + 1, hn⟩ 0).cast Facts₀.nbuf0_0)) (st0_1 ⟨n + 1, hn⟩) (Facts₀.hstage0_1 ((cfg0.slots ⟨n + 1, hn⟩ 1).cast Facts₀.nbuf0_1)) (st0_2 ⟨n + 1, hn⟩) (Facts₀.hstage0_2 ((cfg0.slots ⟨n + 1, hn⟩ 2).cast Facts₀.nbuf0_2)) (st0_3 ⟨n + 1, hn⟩) (Facts₀.hstage0_3 ((cfg0.slots ⟨n + 1, hn⟩ 3).cast Facts₀.nbuf0_3)) (st0_4 ⟨n + 1, hn⟩) (Facts₀.hstage0_4 ((cfg0.slots ⟨n + 1, hn⟩ 4).cast Facts₀.nbuf0_4)) (st0_5 ⟨n + 1, hn⟩) (Facts₀.hstage0_5 ((cfg0.slots ⟨n + 1, hn⟩ 5).cast Facts₀.nbuf0_5)) accM (Memref.isWhole_whole _) (fun h => h0 ((resetAt_iff ⟨n + 1, hn⟩).mp h)) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (outsAt0 c n (Nat.lt_of_succ_lt hn)).2)

theorem outsAt0_A (c : Dev nD) (t : Fin cfg0.N) (h0 : t.val % 8 = 0) :
    outsAt0 V c t.val t.isLt = (outA_5 c (grid0.coords t) (st0_0 t) (Facts₀.hstage0_0 ((cfg0.slots t 0).cast Facts₀.nbuf0_0)) (st0_1 t) (Facts₀.hstage0_1 ((cfg0.slots t 1).cast Facts₀.nbuf0_1)) (st0_2 t) (Facts₀.hstage0_2 ((cfg0.slots t 2).cast Facts₀.nbuf0_2)) (st0_3 t) (Facts₀.hstage0_3 ((cfg0.slots t 3).cast Facts₀.nbuf0_3)) (st0_4 t) (Facts₀.hstage0_4 ((cfg0.slots t 4).cast Facts₀.nbuf0_4)) (st0_5 t) (Facts₀.hstage0_5 ((cfg0.slots t 5).cast Facts₀.nbuf0_5)) accM (Memref.isWhole_whole _) ((resetAt_iff t).mpr h0) (iblk0 V c 0 t) (iblk0 V c 1 t) (iblk0 V c 2 t) (iblk0 V c 3 t) (iblk0 V c 4 t),
      soutA c (grid0.coords t) (st0_0 t) (Facts₀.hstage0_0 ((cfg0.slots t 0).cast Facts₀.nbuf0_0)) (st0_1 t) (Facts₀.hstage0_1 ((cfg0.slots t 1).cast Facts₀.nbuf0_1)) (st0_2 t) (Facts₀.hstage0_2 ((cfg0.slots t 2).cast Facts₀.nbuf0_2)) (st0_3 t) (Facts₀.hstage0_3 ((cfg0.slots t 3).cast Facts₀.nbuf0_3)) (st0_4 t) (Facts₀.hstage0_4 ((cfg0.slots t 4).cast Facts₀.nbuf0_4)) (st0_5 t) (Facts₀.hstage0_5 ((cfg0.slots t 5).cast Facts₀.nbuf0_5)) accM (Memref.isWhole_whole _) ((resetAt_iff t).mpr h0) (iblk0 V c 0 t) (iblk0 V c 1 t) (iblk0 V c 2 t) (iblk0 V c 3 t) (iblk0 V c 4 t)) := by
  obtain ⟨n, hn⟩ := t
  cases n with
  | zero => exact rfl
  | succ n => exact (dif_pos h0).trans rfl

theorem outsAt0_B (c : Dev nD) (t : Fin cfg0.N) (h0 : ¬t.val % 8 = 0) :
    outsAt0 V c t.val t.isLt = (outB_5 c (grid0.coords t) (st0_0 t) (Facts₀.hstage0_0 ((cfg0.slots t 0).cast Facts₀.nbuf0_0)) (st0_1 t) (Facts₀.hstage0_1 ((cfg0.slots t 1).cast Facts₀.nbuf0_1)) (st0_2 t) (Facts₀.hstage0_2 ((cfg0.slots t 2).cast Facts₀.nbuf0_2)) (st0_3 t) (Facts₀.hstage0_3 ((cfg0.slots t 3).cast Facts₀.nbuf0_3)) (st0_4 t) (Facts₀.hstage0_4 ((cfg0.slots t 4).cast Facts₀.nbuf0_4)) (st0_5 t) (Facts₀.hstage0_5 ((cfg0.slots t 5).cast Facts₀.nbuf0_5)) accM (Memref.isWhole_whole _) (fun h => h0 ((resetAt_iff t).mp h)) (iblk0 V c 0 t) (iblk0 V c 1 t) (iblk0 V c 2 t) (iblk0 V c 3 t) (iblk0 V c 4 t) (outsAt0 V c (t.val - 1) (Nat.lt_of_le_of_lt (Nat.sub_le _ _) t.isLt)).2,
      soutB c (grid0.coords t) (st0_0 t) (Facts₀.hstage0_0 ((cfg0.slots t 0).cast Facts₀.nbuf0_0)) (st0_1 t) (Facts₀.hstage0_1 ((cfg0.slots t 1).cast Facts₀.nbuf0_1)) (st0_2 t) (Facts₀.hstage0_2 ((cfg0.slots t 2).cast Facts₀.nbuf0_2)) (st0_3 t) (Facts₀.hstage0_3 ((cfg0.slots t 3).cast Facts₀.nbuf0_3)) (st0_4 t) (Facts₀.hstage0_4 ((cfg0.slots t 4).cast Facts₀.nbuf0_4)) (st0_5 t) (Facts₀.hstage0_5 ((cfg0.slots t 5).cast Facts₀.nbuf0_5)) accM (Memref.isWhole_whole _) (fun h => h0 ((resetAt_iff t).mp h)) (iblk0 V c 0 t) (iblk0 V c 1 t) (iblk0 V c 2 t) (iblk0 V c 3 t) (iblk0 V c 4 t) (outsAt0 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans rfl

/-- The region's invariant before position `n`: before the first point the scoped rest at anything; afterwards the
    scratch at what the point before left in it, the other kernel's scoped buffers at anything, and the generator
    register at some state. -/
def PhiS (c : Dev nD) : (n : ℕ) → n ≤ cfg0.N → sProp 𝕄
  | 0, _ => Pipeline.ΦA spec0 c
  | n + 1, hn => iprop(iprop(owns (c : Thread nD τ) accM fullShare ((outsAt0 V c n hn).2) ∗ others0 c) ∗ (∃ r, prngReg c r))

theorem PhiS_zero (c : Dev nD) (n : ℕ) (h : n ≤ cfg0.N) (hz : n = 0) : PhiS V c n h = Pipeline.ΦA spec0 c := by
  subst hz; rfl

theorem PhiS_succ (c : Dev nD) (n : ℕ) (hn : n < cfg0.N) :
    PhiS V c (n + 1) hn = iprop(iprop(owns (c : Thread nD τ) accM fullShare ((outsAt0 V c n hn).2) ∗ others0 c) ∗ (∃ r, prngReg c r)) := rfl

theorem PhiS_pos (c : Dev nD) (n : ℕ) (h : n ≤ cfg0.N) (hz : n ≠ 0) :
    PhiS V c n h = iprop(iprop(owns (c : Thread nD τ) accM fullShare ((outsAt0 V c (n - 1) (by omega)).2) ∗ others0 c) ∗ (∃ r, prngReg c r)) := by
  cases n with
  | zero => exact absurd rfl hz
  | succ n => rfl

/-! ## The proof data -/

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => (outsAt0 V c t.val t.isLt).1
  Φ t := PhiS V c t.val (Nat.le_of_lt_succ t.isLt)
  q _ := fullShare
  owed _ := 0

theorem A_eq0 (c : Dev nD) (w : Fin cfg0.W) : (dat0 V c).A w = V c (Pipeline.arrRef spec0 w) := by
  dsimp only [dat0]

theorem PhiS_castSucc (c : Dev nD) (t : Fin cfg0.N) :
    (dat0 V c).Φ t.castSucc = PhiS V c t.val (Nat.le_of_lt t.isLt) := by
  dsimp only [dat0]; simp only [Fin.coe_castSucc]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = (outsAt0 V c t.val t.isLt).1 := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d

/-! ## The body obligation -/

def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d)))

def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t))

set_option maxHeartbeats 4800000 in
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4]
  rw [show (dat0 V c).owesAt () t.succ = (dat0 V c).owesAt () t.castSucc from rfl]
  rw [show (dat0 V c).Φ t.succ = PhiS V c (t.val + 1) t.isLt from rfl, PhiS_succ]
  rw [after0_0, after0_1, after0_2, after0_3, after0_4, after0_5]
  by_cases h0 : t.val % 8 = 0
  · rw [outsAt0_A V c t h0]
    unfold outA_5 soutA; (try dsimp only)
    by_cases hz : t.val = 0
    · rw [PhiS_castSucc V c t, PhiS_zero V c _ _ hz, PhiA0_eq]
      iintro ⟨⟨⟨HS, Hoth⟩, Hg⟩, Ho, ⟨%d0, H0⟩, ⟨%d1, H1⟩, ⟨%d2, H2⟩, ⟨%d3, H3⟩, ⟨%d4, H4⟩, ⟨%d5, H5⟩⟩
      iapply ((bodyRunA c (grid0.coords t) _ _ _ _ _ _ _ _ _ _ _ _ _ _ ((resetAt_iff t).mpr h0) (iblk0 V c 0 t) (iblk0 V c 1 t) (iblk0 V c 2 t) (iblk0 V c 3 t) (iblk0 V c 4 t)).2.2 Set.univ _)
      isplitl [H0]; · iexact H0
      isplitl [H1]; · iexact H1
      isplitl [H2]; · iexact H2
      isplitl [H3]; · iexact H3
      isplitl [H4]; · iexact H4
      isplitl [H5]; · iexists _; iexact H5
      isplitl [HS]; · iexact HS
      iintro ⟨H0, H1, H2, H3, H4, ⟨%e5, H5⟩, ⟨%es, HS⟩⟩
      isplitl [HS Hg Hoth]
      · isplitl [HS Hoth]
        · isplitl [HS]
          · unfold owns; iexists _; isplitr
            swap; · iexact HS
            ipureintro; exact View.read_writes_of_cover _ _ _ _ _ (scoverA c _ _ _ _ _ _ _ _ _ _ _ _ _ _ _ _ _ _ _ _ _)
          iexact Hoth
        iexact Hg
      isplitl [Ho]; · iexact Ho
      isplitl [H0]; · iexact H0
      isplitl [H1]; · iexact H1
      isplitl [H2]; · iexact H2
      isplitl [H3]; · iexact H3
      isplitl [H4]; · iexact H4
      unfold owns; iexists _; isplitr
      swap; · iexact H5
      ipureintro; exact View.read_writes_of_cover _ _ _ _ _ (coverA_5 c _ _ _ _ _ _ _ _ _ _ _ _ _ _ _ _ _ _ _ _ _)
    · rw [PhiS_castSucc V c t, PhiS_pos V c _ _ hz]
      iintro ⟨⟨⟨HS, Hoth⟩, Hg⟩, Ho, ⟨%d0, H0⟩, ⟨%d1, H1⟩, ⟨%d2, H2⟩, ⟨%d3, H3⟩, ⟨%d4, H4⟩, ⟨%d5, H5⟩⟩
      iapply ((bodyRunA c (grid0.coords t) _ _ _ _ _ _ _ _ _ _ _ _ _ _ ((resetAt_iff t).mpr h0) (iblk0 V c 0 t) (iblk0 V c 1 t) (iblk0 V c 2 t) (iblk0 V c 3 t) (iblk0 V c 4 t)).2.2 Set.univ _)
      isplitl [H0]; · iexact H0
      isplitl [H1]; · iexact H1
      isplitl [H2]; · iexact H2
      isplitl [H3]; · iexact H3
      isplitl [H4]; · iexact H4
      isplitl [H5]; · iexists _; iexact H5
      isplitl [HS]; · iexists _; iexact HS
      iintro ⟨H0, H1, H2, H3, H4, ⟨%e5, H5⟩, ⟨%es, HS⟩⟩
      isplitl [HS Hg Hoth]
      · isplitl [HS Hoth]
        · isplitl [HS]
          · unfold owns; iexists _; isplitr
            swap; · iexact HS
            ipureintro; exact View.read_writes_of_cover _ _ _ _ _ (scoverA c _ _ _ _ _ _ _ _ _ _ _ _ _ _ _ _ _ _ _ _ _)
          iexact Hoth
        iexact Hg
      isplitl [Ho]; · iexact Ho
      isplitl [H0]; · iexact H0
      isplitl [H1]; · iexact H1
      isplitl [H2]; · iexact H2
      isplitl [H3]; · iexact H3
      isplitl [H4]; · iexact H4
      unfold owns; iexists _; isplitr
      swap; · iexact H5
      ipureintro; exact View.read_writes_of_cover _ _ _ _ _ (coverA_5 c _ _ _ _ _ _ _ _ _ _ _ _ _ _ _ _ _ _ _ _ _)
  · rw [outsAt0_B V c t h0]
    unfold outB_5 soutB; (try dsimp only)
    have hz : t.val ≠ 0 := fun e => h0 (by rw [e])
    rw [PhiS_castSucc V c t, PhiS_pos V c _ _ hz]
    iintro ⟨⟨⟨HS, Hoth⟩, Hg⟩, Ho, ⟨%d0, H0⟩, ⟨%d1, H1⟩, ⟨%d2, H2⟩, ⟨%d3, H3⟩, ⟨%d4, H4⟩, ⟨%d5, H5⟩⟩
    iapply ((bodyRunB c (grid0.coords t) _ _ _ _ _ _ _ _ _ _ _ _ _ _ (fun h => h0 ((resetAt_iff t).mp h)) (iblk0 V c 0 t) (iblk0 V c 1 t) (iblk0 V c 2 t) (iblk0 V c 3 t) (iblk0 V c 4 t) _).2.2 Set.univ _)
    isplitl [H0]; · iexact H0
    isplitl [H1]; · iexact H1
    isplitl [H2]; · iexact H2
    isplitl [H3]; · iexact H3
    isplitl [H4]; · iexact H4
    isplitl [H5]; · iexists _; iexact H5
    isplitl [HS]; · iexact HS
    iintro ⟨H0, H1, H2, H3, H4, ⟨%e5, H5⟩, ⟨%es, HS⟩⟩
    isplitl [HS Hg Hoth]
    · isplitl [HS Hoth]
      · isplitl [HS]
        · unfold owns; iexists _; isplitr
          swap; · iexact HS
          ipureintro; exact View.read_writes_of_cover _ _ _ _ _ (scoverB c _ _ _ _ _ _ _ _ _ _ _ _ _ _ _ _ _ _ _ _ _ _)
        iexact Hoth
      iexact Hg
    isplitl [Ho]; · iexact Ho
    isplitl [H0]; · iexact H0
    isplitl [H1]; · iexact H1
    isplitl [H2]; · iexact H2
    isplitl [H3]; · iexact H3
    isplitl [H4]; · iexact H4
    unfold owns; iexists _; isplitr
    swap; · iexact H5
    ipureintro; exact View.read_writes_of_cover _ _ _ _ _ (coverB_5 c _ _ _ _ _ _ _ _ _ _ _ _ _ _ _ _ _ _ _ _ _ _)

theorem body_obligation0 (c : Dev nD) : BodyObligation (dat0 (F := F) V c) (defs₀ (F := F)) Variants.none () Set.univ := fun t => by
  rw [bigSep_W0, bigSep_W0]
  exact sound_body0 V c t

/-- What the launch hands the region is the invariant before the first point. -/
theorem hin0 (c : Dev nD) : Pipeline.ΦA spec0 c ⊢ (dat0 V c).Φ 0 := by
  rw [show (dat0 V c).Φ 0 = PhiS V c 0 (Nat.zero_le _) from rfl, PhiS_zero V c 0 _ rfl]
  try exact Idealize.SL.BI.Entails.refl _

/-- After the last point the invariant gives the scoped rest back, the scratch's contents forgotten. -/
theorem hout0 (c : Dev nD) : (dat0 V c).Φ (Fin.last cfg0.N) ⊢ Pipeline.ΦA spec0 c := by
  rw [show (dat0 V c).Φ (Fin.last cfg0.N) = PhiS V c (Fin.last cfg0.N).val (Nat.le_of_lt_succ (Fin.last cfg0.N).isLt) from rfl,
    PhiS_pos V c _ _ (by rw [Fin.val_last]; have : cfg0.N = 64 := N_0; omega), PhiA0_eq]
  iintro ⟨⟨HS, Hoth⟩, Hg⟩
  isplitl [HS Hoth]
  · isplitl [HS]
    · iexists _; iexact HS
    iexact Hoth
  iexact Hg

end Cert.KernelIdeal.Hand

end
-- ==== Proof.KIPieces.lean ====
/-
  What the first kernel's body leaves, as values: in both cases the accumulator scratch ends holding the sum of what it
  held before the products (zero, in the reset case) and this block's product, and the output's staging buffer ends
  holding a copy of the scratch. Hence the scratch after each point is a running sum that restarts at every eighth
  point.
-/
import proofs.«103711_j49082886259369_1_alg».proof.Proof.KIDat0
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Facts₀ Cert.KernelIdeal.Facts

variable {F : FTy → Type} [FloatOps F]

local notation "𝕄" => MT nD τ sig Unit (Elt F) ℕ (UR sig nD τ) ℕ

theorem hz2 : (![0, 0] : Fin 2 → Nat) = fun _ => 0 := funext fun a => by fin_cases a <;> rfl
theorem hz3 : (![0, 0, 0] : Fin 3 → Nat) = fun _ => 0 := funext fun a => by fin_cases a <;> rfl

/-- A load through the whole-buffer rectangle of what stores left, the LAST of them a whole-buffer store, reads that
    store's payload. -/
theorem readCov_cons_unit_zero {Val : EltTy → Type} [∀ e, Nonempty (Val e)] {S : Shape} {e : EltTy} {sig : RefSig} {κ : Kind} {sp : Space}
    (v : View sig κ sp S e) {off : Fin S.rank → Nat} (h : off = fun _ => 0)
    (inb : ∀ a, off a + S.size a ≤ S.size a) (w : S.Idx → Val e) (L : List (View.Piece Val S e)) :
    v.readCov ((⟨Rect.unit off S.size inb, w⟩ : View.Piece Val S e) :: L) (Rect.unit off S.size inb).toLoadRect = w := by
  subst h
  rw [View.readCov_eq_canon_ld _ _ _ (fun y => ⟨_, List.mem_cons_self, by
    show y ∈ (Rect.whole S).set; rw [Rect.set_whole]; exact Finset.mem_univ y⟩), View.canon_cons_unit_zero rfl, View.ld_unit_zero rfl]

/-- The carrying case: the scratch ends at the payload over the blocks and what the scratch held. -/
theorem soutB_eq (c : Dev nD) (i : grid0.Coords) (arg2 : Memref sig .tc .vmem S1x256x1024 .f32) (harg2 : arg2.IsWhole) (arg3 : Memref sig .tc .vmem S1x256x1024 .f32) (harg3 : arg3.IsWhole) (arg4 : Memref sig .tc .vmem S1x256x1024 .f32) (harg4 : arg4.IsWhole) (arg5 : Memref sig .tc .vmem S1024x1024 .bf16) (harg5 : arg5.IsWhole) (arg6 : Memref sig .tc .vmem S1024x1024 .bf16) (harg6 : arg6.IsWhole) (arg7 : Memref sig .tc .vmem S1x1024x1024 .f32) (harg7 : arg7.IsWhole) (arg8 : Memref sig .tc .vmem S1024x1024 .f32) (harg8 : arg8.IsWhole) (hc0 : ¬resetAt i)
    (x0 : Vec F S1x256x1024 .f32) (x1 : Vec F S1x256x1024 .f32) (x2 : Vec F S1x256x1024 .f32) (x3 : Vec F S1024x1024 .bf16) (x4 : Vec F S1024x1024 .bf16) (xs : Vec F S1024x1024 .f32) :
    soutB c i arg2 harg2 arg3 harg3 arg4 harg4 arg5 harg5 arg6 harg6 arg7 harg7 arg8 harg8 hc0 x0 x1 x2 x3 x4 xs = k0_pay3 x0 x1 x2 x3 x4 xs := by
  unfold soutB
  rw [View.read_writes_eq_canon _ _ _ (scoverB c i arg2 harg2 arg3 harg3 arg4 harg4 arg5 harg5 arg6 harg6 arg7 harg7 arg8 harg8 hc0 x0 x1 x2 x3 x4 xs)]
  unfold bodyRunB
  dsimp only
  sl_unfold_words
  rw [View.canon_unit_zero hz2]
  simp only [View.readAt_eq_ld, harg2.read_unread, harg3.read_unread, harg4.read_unread, harg5.read_unread, harg6.read_unread, harg7.read_unread, harg8.read_unread, View.ld_unit_zero (S := S1x256x1024) hz3, View.ld_unit_zero (S := S1024x1024) hz2, View.ld_unit_zero (S := S1x1024x1024) hz3]

/-- The carrying case: the output's staging buffer ends holding the scratch's new contents. -/
theorem outB_5_eq (c : Dev nD) (i : grid0.Coords) (arg2 : Memref sig .tc .vmem S1x256x1024 .f32) (harg2 : arg2.IsWhole) (arg3 : Memref sig .tc .vmem S1x256x1024 .f32) (harg3 : arg3.IsWhole) (arg4 : Memref sig .tc .vmem S1x256x1024 .f32) (harg4 : arg4.IsWhole) (arg5 : Memref sig .tc .vmem S1024x1024 .bf16) (harg5 : arg5.IsWhole) (arg6 : Memref sig .tc .vmem S1024x1024 .bf16) (harg6 : arg6.IsWhole) (arg7 : Memref sig .tc .vmem S1x1024x1024 .f32) (harg7 : arg7.IsWhole) (arg8 : Memref sig .tc .vmem S1024x1024 .f32) (harg8 : arg8.IsWhole) (hc0 : ¬resetAt i)
    (x0 : Vec F S1x256x1024 .f32) (x1 : Vec F S1x256x1024 .f32) (x2 : Vec F S1x256x1024 .f32) (x3 : Vec F S1024x1024 .bf16) (x4 : Vec F S1024x1024 .bf16) (xs : Vec F S1024x1024 .f32) :
    outB_5 c i arg2 harg2 arg3 harg3 arg4 harg4 arg5 harg5 arg6 harg6 arg7 harg7 arg8 harg8 hc0 x0 x1 x2 x3 x4 xs = k0_pay1 (k0_pay3 x0 x1 x2 x3 x4 xs) := by
  unfold outB_5
  rw [View.read_writes_eq_canon _ _ _ (coverB_5 c i arg2 harg2 arg3 harg3 arg4 harg4 arg5 harg5 arg6 harg6 arg7 harg7 arg8 harg8 hc0 x0 x1 x2 x3 x4 xs)]
  unfold bodyRunB
  dsimp only
  sl_unfold_words
  rw [View.canon_unit_zero hz3]
  simp only [readCov_cons_unit_zero (S := S1024x1024) _ hz2, View.readAt_eq_ld, harg2.read_unread, harg3.read_unread, harg4.read_unread, harg5.read_unread, harg6.read_unread, harg7.read_unread, harg8.read_unread, View.ld_unit_zero (S := S1x256x1024) hz3, View.ld_unit_zero (S := S1024x1024) hz2, View.ld_unit_zero (S := S1x1024x1024) hz3]

/-- The reset case: the scratch ends at the payload over the blocks and the zero block. -/
theorem soutA_eq (c : Dev nD) (i : grid0.Coords) (arg2 : Memref sig .tc .vmem S1x256x1024 .f32) (harg2 : arg2.IsWhole) (arg3 : Memref sig .tc .vmem S1x256x1024 .f32) (harg3 : arg3.IsWhole) (arg4 : Memref sig .tc .vmem S1x256x1024 .f32) (harg4 : arg4.IsWhole) (arg5 : Memref sig .tc .vmem S1024x1024 .bf16) (harg5 : arg5.IsWhole) (arg6 : Memref sig .tc .vmem S1024x1024 .bf16) (harg6 : arg6.IsWhole) (arg7 : Memref sig .tc .vmem S1x1024x1024 .f32) (harg7 : arg7.IsWhole) (arg8 : Memref sig .tc .vmem S1024x1024 .f32) (harg8 : arg8.IsWhole) (hc0 : resetAt i)
    (x0 : Vec F S1x256x1024 .f32) (x1 : Vec F S1x256x1024 .f32) (x2 : Vec F S1x256x1024 .f32) (x3 : Vec F S1024x1024 .bf16) (x4 : Vec F S1024x1024 .bf16) :
    soutA c i arg2 harg2 arg3 harg3 arg4 harg4 arg5 harg5 arg6 harg6 arg7 harg7 arg8 harg8 hc0 x0 x1 x2 x3 x4 = k0_pay3 x0 x1 x2 x3 x4 (k0_pay2 (F := F)) := by
  unfold soutA
  rw [View.read_writes_eq_canon _ _ _ (scoverA c i arg2 harg2 arg3 harg3 arg4 harg4 arg5 harg5 arg6 harg6 arg7 harg7 arg8 harg8 hc0 x0 x1 x2 x3 x4)]
  unfold bodyRunA
  dsimp only
  sl_unfold_words
  rw [View.canon_cons_unit_zero (S := S1024x1024) hz2]
  simp only [readCov_cons_unit_zero (S := S1024x1024) _ hz2, View.readAt_eq_ld, harg2.read_unread, harg3.read_unread, harg4.read_unread, harg5.read_unread, harg6.read_unread, harg7.read_unread, harg8.read_unread, View.ld_unit_zero (S := S1x256x1024) hz3, View.ld_unit_zero (S := S1024x1024) hz2, View.ld_unit_zero (S := S1x1024x1024) hz3]

/-- The reset case: the output's staging buffer ends holding the scratch's new contents. -/
theorem outA_5_eq (c : Dev nD) (i : grid0.Coords) (arg2 : Memref sig .tc .vmem S1x256x1024 .f32) (harg2 : arg2.IsWhole) (arg3 : Memref sig .tc .vmem S1x256x1024 .f32) (harg3 : arg3.IsWhole) (arg4 : Memref sig .tc .vmem S1x256x1024 .f32) (harg4 : arg4.IsWhole) (arg5 : Memref sig .tc .vmem S1024x1024 .bf16) (harg5 : arg5.IsWhole) (arg6 : Memref sig .tc .vmem S1024x1024 .bf16) (harg6 : arg6.IsWhole) (arg7 : Memref sig .tc .vmem S1x1024x1024 .f32) (harg7 : arg7.IsWhole) (arg8 : Memref sig .tc .vmem S1024x1024 .f32) (harg8 : arg8.IsWhole) (hc0 : resetAt i)
    (x0 : Vec F S1x256x1024 .f32) (x1 : Vec F S1x256x1024 .f32) (x2 : Vec F S1x256x1024 .f32) (x3 : Vec F S1024x1024 .bf16) (x4 : Vec F S1024x1024 .bf16) :
    outA_5 c i arg2 harg2 arg3 harg3 arg4 harg4 arg5 harg5 arg6 harg6 arg7 harg7 arg8 harg8 hc0 x0 x1 x2 x3 x4 = k0_pay1 (k0_pay3 x0 x1 x2 x3 x4 (k0_pay2 (F := F))) := by
  unfold outA_5
  rw [View.read_writes_eq_canon _ _ _ (coverA_5 c i arg2 harg2 arg3 harg3 arg4 harg4 arg5 harg5 arg6 harg6 arg7 harg7 arg8 harg8 hc0 x0 x1 x2 x3 x4)]
  unfold bodyRunA
  dsimp only
  sl_unfold_words
  rw [View.canon_unit_zero hz3]
  simp only [readCov_cons_unit_zero (S := S1024x1024) _ hz2, View.readAt_eq_ld, harg2.read_unread, harg3.read_unread, harg4.read_unread, harg5.read_unread, harg6.read_unread, harg7.read_unread, harg8.read_unread, View.ld_unit_zero (S := S1x256x1024) hz3, View.ld_unit_zero (S := S1024x1024) hz2, View.ld_unit_zero (S := S1x1024x1024) hz3]

variable (V : (c : Dev nD) → (b : Ref sig .tc) → Buf (Elt F) ((c : Thread nD τ).loc b))

/-- The accumulator after point `n`: this block's product added to zero at the first row block of a batch, else to
    what the point before left. -/
def accAt (c : Dev nD) : (n : ℕ) → n < cfg0.N → Vec F S1024x1024 .f32
  | 0, h => k0_pay3 (iblk0 V c 0 ⟨0, h⟩) (iblk0 V c 1 ⟨0, h⟩) (iblk0 V c 2 ⟨0, h⟩) (iblk0 V c 3 ⟨0, h⟩) (iblk0 V c 4 ⟨0, h⟩) (k0_pay2 (F := F))
  | n + 1, h => k0_pay3 (iblk0 V c 0 ⟨n + 1, h⟩) (iblk0 V c 1 ⟨n + 1, h⟩) (iblk0 V c 2 ⟨n + 1, h⟩) (iblk0 V c 3 ⟨n + 1, h⟩) (iblk0 V c 4 ⟨n + 1, h⟩)
      (if (n + 1) % 8 = 0 then k0_pay2 (F := F) else accAt c n (Nat.lt_of_succ_lt h))

/-- After every point the scratch holds the running sum and the output's staging buffer a copy of it. -/
theorem outsAt0_eq (c : Dev nD) : ∀ (n : ℕ) (h : n < cfg0.N), outsAt0 V c n h = (k0_pay1 (accAt V c n h), accAt V c n h)
  | 0, h => by
    rw [show outsAt0 V c 0 h = outsAt0 V c (⟨0, h⟩ : Fin cfg0.N).val (⟨0, h⟩ : Fin cfg0.N).isLt from rfl, outsAt0_A V c ⟨0, h⟩ rfl, outA_5_eq, soutA_eq]
    rfl
  | n + 1, h => by
    by_cases h0 : (n + 1) % 8 = 0
    · rw [show outsAt0 V c (n + 1) h = outsAt0 V c (⟨n + 1, h⟩ : Fin cfg0.N).val (⟨n + 1, h⟩ : Fin cfg0.N).isLt from rfl, outsAt0_A V c ⟨n + 1, h⟩ h0, outA_5_eq, soutA_eq]
      unfold accAt; rw [if_pos h0]
    · rw [show outsAt0 V c (n + 1) h = outsAt0 V c (⟨n + 1, h⟩ : Fin cfg0.N).val (⟨n + 1, h⟩ : Fin cfg0.N).isLt from rfl, outsAt0_B V c ⟨n + 1, h⟩ h0, outB_5_eq, soutB_eq]
      show (k0_pay1 (k0_pay3 _ _ _ _ _ (outsAt0 V c n _).2), k0_pay3 _ _ _ _ _ (outsAt0 V c n _).2) = _
      rw [outsAt0_eq c n (Nat.lt_of_succ_lt h)]
      conv_rhs => unfold accAt
      rw [if_neg h0]

end Cert.KernelIdeal.Hand

end
-- ==== Proof.KIPay.lean ====
/-
  The arithmetic of the two kernels' bodies, read at one index, over the extended reals (where a change of float format
  is the identity and a product of matrices is an exact sum).

  First kernel, one step (b, t) of its grid, with the blocks q, k, v : [1, 256, 1024] of the three activations, the two
  weight matrices W, U : [1024, 1024] and the running score block acc : [1024, 1024]:

      fac[r, e]   = tanh( sum_j k[0, r, j] * W[j, e]  +  sum_j q[0, r, j] * U[j, e] )          r < 256
      acc'[d, e]  = acc[d, e] + sum_r v[0, r, d] * fac[r, e]                                   (rows of v against fac)

  the score block starts from zero and is copied out unchanged under a leading unit axis. Second kernel, one batch
  member: out[0, r, e] = sum_d v[0, r, d] * a[0, d, e].

  A product of matrices read at an index is the sum over its one contracted coordinate: for each of the three
  dimension records the operand indices are computed axis by axis (a free axis reads the result index, the contracted
  axis reads the contraction's coordinate), and the contraction's index set is re-indexed by that coordinate.
-/
import proofs.«103711_j49082886259369_1_alg».proof.Proof.Gen.KernelIdeal.Skeleton
import Idealize.ShloMosaic.Lib.ValueIdx
import Idealize.ShloMosaic.Lib.Pipeline.Value
import Idealize.ShloMosaic.Lib.ValueLayout
import Idealize.ShloMosaic.PureOps.Ideal.Laws

noncomputable section

open scoped BigOperators

namespace Cert.KernelIdeal.PayVal

open Cert.KernelIdeal Cert.KernelIdeal.Gen Idealize.ShloMosaic Idealize.ShloMosaic.ValueIdx

/-! ## Rows by columns, [256, 1024] × [1024, 1024] → [256, 1024]: the operand indices, axis by axis -/

/-- The left operand's row is the result's row. -/
theorem lhs_rc_0 (i : S256x1024.Idx) (q : dot_S256x1024_S1024x1024_S256x1024_1_0_0_1_n_n.contr.Idx) :
    (dot_S256x1024_S1024x1024_S256x1024_1_0_0_1_n_n.lhsIdx i q 0).val = (i 0).val := by
  unfold DotDims.lhsIdx
  rw [dif_neg (show ¬(0 : Fin S256x1024.rank) ∈ dot_S256x1024_S1024x1024_S256x1024_1_0_0_1_n_n.lhsBatch by decide),
    dif_pos (show (0 : Fin S256x1024.rank) ∈ dot_S256x1024_S1024x1024_S256x1024_1_0_0_1_n_n.lhsNonContracting by decide)]
  rfl

/-- The left operand's column is the contracted coordinate. -/
theorem lhs_rc_1 (i : S256x1024.Idx) (q : dot_S256x1024_S1024x1024_S256x1024_1_0_0_1_n_n.contr.Idx) :
    (dot_S256x1024_S1024x1024_S256x1024_1_0_0_1_n_n.lhsIdx i q 1).val = (q ⟨0, by decide⟩).val :=
  dot_S256x1024_S1024x1024_S256x1024_1_0_0_1_n_n.lhsIdx_val_of_single rfl i q

/-- The right operand's row is the contracted coordinate. -/
theorem rhs_rc_0 (i : S256x1024.Idx) (q : dot_S256x1024_S1024x1024_S256x1024_1_0_0_1_n_n.contr.Idx) :
    (dot_S256x1024_S1024x1024_S256x1024_1_0_0_1_n_n.rhsIdx i q 0).val = (q ⟨0, by decide⟩).val :=
  dot_S256x1024_S1024x1024_S256x1024_1_0_0_1_n_n.rhsIdx_val_of_single rfl i q

/-- The right operand's column is the result's column. -/
theorem rhs_rc_1 (i : S256x1024.Idx) (q : dot_S256x1024_S1024x1024_S256x1024_1_0_0_1_n_n.contr.Idx) :
    (dot_S256x1024_S1024x1024_S256x1024_1_0_0_1_n_n.rhsIdx i q 1).val = (i 1).val := by
  unfold DotDims.rhsIdx
  rw [dif_neg (show ¬(1 : Fin S1024x1024.rank) ∈ dot_S256x1024_S1024x1024_S256x1024_1_0_0_1_n_n.rhsBatch by decide),
    dif_pos (show (1 : Fin S1024x1024.rank) ∈ dot_S256x1024_S1024x1024_S256x1024_1_0_0_1_n_n.rhsNonContracting by decide)]
  rfl

/-- Into the zero accumulator, the product at (a, e) is the sum over j of l[a, j] * r[j, e]. -/
theorem matmul_rc_apply (l : FVec Ideal S256x1024 .bf16) (r : FVec Ideal S1024x1024 .bf16) (a : Fin 256) (e : Fin 1024) :
    matmul dot_S256x1024_S1024x1024_S256x1024_1_0_0_1_n_n none l r (constant (F := Ideal) S256x1024 .f32 0x00000000#32) (ix2 a e)
      = ∑ j : Fin 1024, l (ix2 a j) * r (ix2 j e) := by
  show FloatOps.matmul _ none l r _ (ix2 a e) = _
  rw [Ideal.matmul_constant_zero_apply,
    ← Equiv.sum_comp (contrEquiv1 dot_S256x1024_S1024x1024_S256x1024_1_0_0_1_n_n 1024 rfl rfl).symm]
  refine Finset.sum_congr rfl fun k _ => ?_
  have hk := contrEquiv1_symm_val dot_S256x1024_S1024x1024_S256x1024_1_0_0_1_n_n 1024 rfl rfl k
  have el : dot_S256x1024_S1024x1024_S256x1024_1_0_0_1_n_n.lhsIdx (ix2 a e)
      ((contrEquiv1 dot_S256x1024_S1024x1024_S256x1024_1_0_0_1_n_n 1024 rfl rfl).symm k) = ix2 a k :=
    funext fun ax => Fin.ext (by
      match ax with
      | ⟨0, _⟩ => exact lhs_rc_0 _ _
      | ⟨1, _⟩ => exact (lhs_rc_1 _ _).trans hk)
  have er : dot_S256x1024_S1024x1024_S256x1024_1_0_0_1_n_n.rhsIdx (ix2 a e)
      ((contrEquiv1 dot_S256x1024_S1024x1024_S256x1024_1_0_0_1_n_n 1024 rfl rfl).symm k) = ix2 k e :=
    funext fun ax => Fin.ext (by
      match ax with
      | ⟨0, _⟩ => exact (rhs_rc_0 _ _).trans hk
      | ⟨1, _⟩ => exact rhs_rc_1 _ _)
  rw [el, er]

/-! ## Columns by columns, [256, 1024] × [256, 1024] → [1024, 1024], both operands contracted along their rows -/

/-- The left operand's row is the contracted coordinate. -/
theorem lhs_cc_0 (i : S1024x1024.Idx) (q : dot_S256x1024_S256x1024_S1024x1024_0_0_1_1_n_n.contr.Idx) :
    (dot_S256x1024_S256x1024_S1024x1024_0_0_1_1_n_n.lhsIdx i q 0).val = (q ⟨0, by decide⟩).val :=
  dot_S256x1024_S256x1024_S1024x1024_0_0_1_1_n_n.lhsIdx_val_of_single rfl i q

/-- The left operand's column is the result's row. -/
theorem lhs_cc_1 (i : S1024x1024.Idx) (q : dot_S256x1024_S256x1024_S1024x1024_0_0_1_1_n_n.contr.Idx) :
    (dot_S256x1024_S256x1024_S1024x1024_0_0_1_1_n_n.lhsIdx i q 1).val = (i 0).val := by
  unfold DotDims.lhsIdx
  rw [dif_neg (show ¬(1 : Fin S256x1024.rank) ∈ dot_S256x1024_S256x1024_S1024x1024_0_0_1_1_n_n.lhsBatch by decide),
    dif_pos (show (1 : Fin S256x1024.rank) ∈ dot_S256x1024_S256x1024_S1024x1024_0_0_1_1_n_n.lhsNonContracting by decide)]
  rfl

/-- The right operand's row is the contracted coordinate. -/
theorem rhs_cc_0 (i : S1024x1024.Idx) (q : dot_S256x1024_S256x1024_S1024x1024_0_0_1_1_n_n.contr.Idx) :
    (dot_S256x1024_S256x1024_S1024x1024_0_0_1_1_n_n.rhsIdx i q 0).val = (q ⟨0, by decide⟩).val :=
  dot_S256x1024_S256x1024_S1024x1024_0_0_1_1_n_n.rhsIdx_val_of_single rfl i q

/-- The right operand's column is the result's column. -/
theorem rhs_cc_1 (i : S1024x1024.Idx) (q : dot_S256x1024_S256x1024_S1024x1024_0_0_1_1_n_n.contr.Idx) :
    (dot_S256x1024_S256x1024_S1024x1024_0_0_1_1_n_n.rhsIdx i q 1).val = (i 1).val := by
  unfold DotDims.rhsIdx
  rw [dif_neg (show ¬(1 : Fin S256x1024.rank) ∈ dot_S256x1024_S256x1024_S1024x1024_0_0_1_1_n_n.rhsBatch by decide),
    dif_pos (show (1 : Fin S256x1024.rank) ∈ dot_S256x1024_S256x1024_S1024x1024_0_0_1_1_n_n.rhsNonContracting by decide)]
  rfl

/-- Into the zero accumulator, the product at (d, e) is the sum over the rows a of l[a, d] * r[a, e]. -/
theorem matmul_cc_apply (l r : FVec Ideal S256x1024 .bf16) (d e : Fin 1024) :
    matmul dot_S256x1024_S256x1024_S1024x1024_0_0_1_1_n_n none l r (constant (F := Ideal) S1024x1024 .f32 0x00000000#32) (ix2 d e)
      = ∑ a : Fin 256, l (ix2 a d) * r (ix2 a e) := by
  show FloatOps.matmul _ none l r _ (ix2 d e) = _
  rw [Ideal.matmul_constant_zero_apply,
    ← Equiv.sum_comp (contrEquiv1 dot_S256x1024_S256x1024_S1024x1024_0_0_1_1_n_n 256 rfl rfl).symm]
  refine Finset.sum_congr rfl fun k _ => ?_
  have hk := contrEquiv1_symm_val dot_S256x1024_S256x1024_S1024x1024_0_0_1_1_n_n 256 rfl rfl k
  have el : dot_S256x1024_S256x1024_S1024x1024_0_0_1_1_n_n.lhsIdx (ix2 d e)
      ((contrEquiv1 dot_S256x1024_S256x1024_S1024x1024_0_0_1_1_n_n 256 rfl rfl).symm k) = ix2 k d :=
    funext fun ax => Fin.ext (by
      match ax with
      | ⟨0, _⟩ => exact (lhs_cc_0 _ _).trans hk
      | ⟨1, _⟩ => exact lhs_cc_1 _ _)
  have er : dot_S256x1024_S256x1024_S1024x1024_0_0_1_1_n_n.rhsIdx (ix2 d e)
      ((contrEquiv1 dot_S256x1024_S256x1024_S1024x1024_0_0_1_1_n_n 256 rfl rfl).symm k) = ix2 k e :=
    funext fun ax => Fin.ext (by
      match ax with
      | ⟨0, _⟩ => exact (rhs_cc_0 _ _).trans hk
      | ⟨1, _⟩ => exact rhs_cc_1 _ _)
  rw [el, er]

/-! ## Rows by columns, [1024, 1024] × [1024, 1024] → [1024, 1024] -/

/-- The left operand's row is the result's row. -/
theorem lhs_sq_0 (i : S1024x1024.Idx) (q : dot_S1024x1024_S1024x1024_S1024x1024_1_0_0_1_n_n.contr.Idx) :
    (dot_S1024x1024_S1024x1024_S1024x1024_1_0_0_1_n_n.lhsIdx i q 0).val = (i 0).val := by
  unfold DotDims.lhsIdx
  rw [dif_neg (show ¬(0 : Fin S1024x1024.rank) ∈ dot_S1024x1024_S1024x1024_S1024x1024_1_0_0_1_n_n.lhsBatch by decide),
    dif_pos (show (0 : Fin S1024x1024.rank) ∈ dot_S1024x1024_S1024x1024_S1024x1024_1_0_0_1_n_n.lhsNonContracting by decide)]
  rfl

/-- The left operand's column is the contracted coordinate. -/
theorem lhs_sq_1 (i : S1024x1024.Idx) (q : dot_S1024x1024_S1024x1024_S1024x1024_1_0_0_1_n_n.contr.Idx) :
    (dot_S1024x1024_S1024x1024_S1024x1024_1_0_0_1_n_n.lhsIdx i q 1).val = (q ⟨0, by decide⟩).val :=
  dot_S1024x1024_S1024x1024_S1024x1024_1_0_0_1_n_n.lhsIdx_val_of_single rfl i q

/-- The right operand's row is the contracted coordinate. -/
theorem rhs_sq_0 (i : S1024x1024.Idx) (q : dot_S1024x1024_S1024x1024_S1024x1024_1_0_0_1_n_n.contr.Idx) :
    (dot_S1024x1024_S1024x1024_S1024x1024_1_0_0_1_n_n.rhsIdx i q 0).val = (q ⟨0, by decide⟩).val :=
  dot_S1024x1024_S1024x1024_S1024x1024_1_0_0_1_n_n.rhsIdx_val_of_single rfl i q

/-- The right operand's column is the result's column. -/
theorem rhs_sq_1 (i : S1024x1024.Idx) (q : dot_S1024x1024_S1024x1024_S1024x1024_1_0_0_1_n_n.contr.Idx) :
    (dot_S1024x1024_S1024x1024_S1024x1024_1_0_0_1_n_n.rhsIdx i q 1).val = (i 1).val := by
  unfold DotDims.rhsIdx
  rw [dif_neg (show ¬(1 : Fin S1024x1024.rank) ∈ dot_S1024x1024_S1024x1024_S1024x1024_1_0_0_1_n_n.rhsBatch by decide),
    dif_pos (show (1 : Fin S1024x1024.rank) ∈ dot_S1024x1024_S1024x1024_S1024x1024_1_0_0_1_n_n.rhsNonContracting by decide)]
  rfl

/-- Into the zero accumulator, the product at (a, e) is the sum over j of l[a, j] * r[j, e]. -/
theorem matmul_sq_apply (l r : FVec Ideal S1024x1024 .bf16) (a e : Fin 1024) :
    matmul dot_S1024x1024_S1024x1024_S1024x1024_1_0_0_1_n_n none l r (constant (F := Ideal) S1024x1024 .f32 0x00000000#32) (ix2 a e)
      = ∑ j : Fin 1024, l (ix2 a j) * r (ix2 j e) := by
  show FloatOps.matmul _ none l r _ (ix2 a e) = _
  rw [Ideal.matmul_constant_zero_apply,
    ← Equiv.sum_comp (contrEquiv1 dot_S1024x1024_S1024x1024_S1024x1024_1_0_0_1_n_n 1024 rfl rfl).symm]
  refine Finset.sum_congr rfl fun k _ => ?_
  have hk := contrEquiv1_symm_val dot_S1024x1024_S1024x1024_S1024x1024_1_0_0_1_n_n 1024 rfl rfl k
  have el : dot_S1024x1024_S1024x1024_S1024x1024_1_0_0_1_n_n.lhsIdx (ix2 a e)
      ((contrEquiv1 dot_S1024x1024_S1024x1024_S1024x1024_1_0_0_1_n_n 1024 rfl rfl).symm k) = ix2 a k :=
    funext fun ax => Fin.ext (by
      match ax with
      | ⟨0, _⟩ => exact lhs_sq_0 _ _
      | ⟨1, _⟩ => exact (lhs_sq_1 _ _).trans hk)
  have er : dot_S1024x1024_S1024x1024_S1024x1024_1_0_0_1_n_n.rhsIdx (ix2 a e)
      ((contrEquiv1 dot_S1024x1024_S1024x1024_S1024x1024_1_0_0_1_n_n 1024 rfl rfl).symm k) = ix2 k e :=
    funext fun ax => Fin.ext (by
      match ax with
      | ⟨0, _⟩ => exact (rhs_sq_0 _ _).trans hk
      | ⟨1, _⟩ => exact rhs_sq_1 _ _)
  rw [el, er]

/-! ## The pieces of the first kernel's step -/

/-- One projection: a [1, 256, 1024] block, its unit axis dropped and its format narrowed, times a weight matrix, read at
    (r, e), is the sum over j of x[0, r, j] * w[j, e]. -/
theorem proj_apply (x : FVec Ideal S1x256x1024 .f32) (w : FVec Ideal S1024x1024 .bf16) (r : Fin 256) (e : Fin 1024) :
    matmul dot_S256x1024_S1024x1024_S256x1024_1_0_0_1_n_n none
        (truncf .bf16 (shapeCast S256x1024 x shapeCasts_S1x256x1024_S256x1024) bitsLt_bf16_f32)
        (shapeCast S1024x1024 w shapeCasts_S1024x1024_S1024x1024)
        (constant (F := Ideal) S256x1024 .f32 0x00000000#32) (ix2 r e)
      = ∑ j : Fin 1024, (x (ix3 (0 : Fin 1) r j) : EReal) * (w (ix2 j e) : EReal) := by
  refine (matmul_rc_apply _ _ r e).trans ?_
  refine Finset.sum_congr rfl fun j _ => ?_
  rw [truncf_apply, shapeCast_1ab_ab_apply, shapeCast_self]

/-- The activation block at (r, e): the hyperbolic tangent of the two projections' sum. -/
theorem fac_apply (q k : FVec Ideal S1x256x1024 .f32) (W U : FVec Ideal S1024x1024 .bf16) (r : Fin 256) (e : Fin 1024) :
    tanh (addf
        (matmul dot_S256x1024_S1024x1024_S256x1024_1_0_0_1_n_n none
          (truncf .bf16 (shapeCast S256x1024 k shapeCasts_S1x256x1024_S256x1024) bitsLt_bf16_f32)
          (shapeCast S1024x1024 W shapeCasts_S1024x1024_S1024x1024) (constant (F := Ideal) S256x1024 .f32 0x00000000#32))
        (matmul dot_S256x1024_S1024x1024_S256x1024_1_0_0_1_n_n none
          (truncf .bf16 (shapeCast S256x1024 q shapeCasts_S1x256x1024_S256x1024) bitsLt_bf16_f32)
          (shapeCast S1024x1024 U shapeCasts_S1024x1024_S1024x1024) (constant (F := Ideal) S256x1024 .f32 0x00000000#32)))
        (ix2 r e)
      = Ideal.tanh ((∑ j : Fin 1024, (k (ix3 (0 : Fin 1) r j) : EReal) * (W (ix2 j e) : EReal))
          + ∑ j : Fin 1024, (q (ix3 (0 : Fin 1) r j) : EReal) * (U (ix2 j e) : EReal)) := by
  show FloatOps.tanh (addf _ _ (ix2 r e)) = _
  rw [Ideal.tanh_def, addf_apply, proj_apply, proj_apply]

/-- The rows of a value block against an activation block: at (d, e) the sum over the 256 rows r of v[0, r, d] * f[r, e]. -/
theorem score_apply (v : FVec Ideal S1x256x1024 .f32) (f : FVec Ideal S256x1024 .f32) (d e : Fin 1024) :
    matmul dot_S256x1024_S256x1024_S1024x1024_0_0_1_1_n_n none
        (truncf .bf16 (shapeCast S256x1024 v shapeCasts_S1x256x1024_S256x1024) bitsLt_bf16_f32)
        (truncf .bf16 f bitsLt_bf16_f32)
        (constant (F := Ideal) S1024x1024 .f32 0x00000000#32) (ix2 d e)
      = ∑ r : Fin 256, (v (ix3 (0 : Fin 1) r d) : EReal) * (f (ix2 r e) : EReal) := by
  refine (matmul_cc_apply _ _ d e).trans ?_
  refine Finset.sum_congr rfl fun r _ => ?_
  rw [truncf_apply, truncf_apply, shapeCast_1ab_ab_apply]

/-! ## The four payloads at an index -/

/-- The score block's initial value is zero everywhere. -/
theorem pay2_apply (d e : Fin 1024) : k0_pay2 (F := Ideal) (ix2 d e) = (0 : EReal) := by
  unfold k0_pay2
  rw [shapeCast_self]
  exact Ideal.ofBits_zero_f32

/-- The score block copied out under a leading unit axis reads the same entry. -/
theorem pay1_apply (acc : Vec Ideal S1024x1024 .f32) (d e : Fin 1024) :
    k0_pay1 acc (ix3 (0 : Fin 1) d e) = acc (ix2 d e) := by
  unfold k0_pay1
  exact shapeCast_ab_1ab_apply acc _ 0 d e

/-- One step of the first kernel: the score block gains, at (d, e), the sum over the step's 256 rows of
    v[0, r, d] * tanh( sum_j k[0, r, j] * W[j, e] + sum_j q[0, r, j] * U[j, e] ). -/
theorem pay3_apply (x0 x1 x2 : Vec Ideal S1x256x1024 .f32) (x3 x4 : Vec Ideal S1024x1024 .bf16)
    (acc : Vec Ideal S1024x1024 .f32) (d e : Fin 1024) :
    k0_pay3 x0 x1 x2 x3 x4 acc (ix2 d e)
      = (acc (ix2 d e) : EReal) + ∑ r : Fin 256, (x2 (ix3 (0 : Fin 1) r d) : EReal)
          * Ideal.tanh ((∑ j : Fin 1024, (x1 (ix3 (0 : Fin 1) r j) : EReal) * (x3 (ix2 j e) : EReal))
              + ∑ j : Fin 1024, (x0 (ix3 (0 : Fin 1) r j) : EReal) * (x4 (ix2 j e) : EReal)) := by
  unfold k0_pay3
  refine (congrFun (shapeCast_self _ _) _).trans ?_
  refine (addf_apply _ _ _).trans ?_
  refine congrArg (fun t : EReal => (acc (ix2 d e) : EReal) + t) ?_
  refine (score_apply x2 _ d e).trans ?_
  refine Finset.sum_congr rfl fun r _ => ?_
  exact congrArg (fun t : EReal => (x2 (ix3 (0 : Fin 1) r d) : EReal) * t) (fac_apply x0 x1 x3 x4 r e)

/-- The second kernel: at (0, r, e) the sum over d of v[0, r, d] * a[0, d, e]. -/
theorem pay1k_apply (v0 : Vec Ideal S1x1024x1024 .f32) (v3 : Vec Ideal S1x1024x1024 .bf16) (r e : Fin 1024) :
    k1_pay1 v0 v3 (ix3 (0 : Fin 1) r e)
      = ∑ d : Fin 1024, (v0 (ix3 (0 : Fin 1) r d) : EReal) * (v3 (ix3 (0 : Fin 1) d e) : EReal) := by
  unfold k1_pay1
  refine (shapeCast_ab_1ab_apply _ _ 0 r e).trans ?_
  refine (matmul_sq_apply _ _ r e).trans ?_
  refine Finset.sum_congr rfl fun d _ => ?_
  rw [truncf_apply, shapeCast_1ab_ab_apply, shapeCast_1ab_ab_apply]

end Cert.KernelIdeal.PayVal

end
-- ==== Proof.KIDat1.lean ====
/-
  The second kernel, point by point: each of its 8 x 2 grid points multiplies one block of 1024 rows of v by one batch's
  attention matrix and stores the product whole into the output window's staging buffer. Nothing is carried between
  points. This module states what the staging buffer holds after the body, the body's triple, the proof data and the
  body obligation at every point.
-/
import proofs.«103711_j49082886259369_1_alg».proof.Proof.KIGrid

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Facts₀ Cert.KernelIdeal.Facts

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

abbrev r1_0 : Rect S1x1024x1024 := Rect.unit (s := S1x1024x1024) ![0, 0, 0] S1x1024x1024.size Facts₀.inb_S1x1024x1024_S1x1024x1024_0_0_0

/-- The output window's staging buffer after the body, from the two input blocks: its one store, covering the buffer. -/
def out1_2 (x0 : Vec F S1x1024x1024 .f32) (x1 : Vec F S1x1024x1024 .bf16) : Vec F S1x1024x1024 .f32 :=
  View.canon [⟨r1_0, k1_pay1 (View.ld x0 r1_0) (View.ld x1 r1_0)⟩]

theorem cover1_2 (p0 : Vec F S1x1024x1024 .f32) (y : S1x1024x1024.Idx) :
    ∃ pc ∈ ([⟨r1_0, p0⟩] : List (View.Piece (Elt F) S1x1024x1024 .f32)), y ∈ pc.1.set :=
  View.cover_of_tiled [⟨r1_0, p0⟩] S1x1024x1024.size (by rfl) y

set_option maxHeartbeats 1000000 in
theorem sound_kernel1 (c : Dev nD) (E : Set ℕ) (i : grid1.Coords) (arg2 : Memref sig .tc .vmem S1x1024x1024 .f32) (harg2 : arg2.IsWhole) (arg3 : Memref sig .tc .vmem S1x1024x1024 .bf16) (harg3 : arg3.IsWhole) (arg4 : Memref sig .tc .vmem S1x1024x1024 .f32) (harg4 : arg4.IsWhole)
    (x0 : Vec F S1x1024x1024 .f32) (x1 : Vec F S1x1024x1024 .bf16) (K : PUnit → sProp 𝕄) :
    iprop(owns (c : Thread nD τ) arg2 fullShare x0 ∗ owns (c : Thread nD τ) arg3 fullShare x1 ∗ (∃ d, owns (c : Thread nD τ) arg4 fullShare d)
        ∗ (iprop(owns (c : Thread nD τ) arg2 fullShare x0 ∗ owns (c : Thread nD τ) arg3 fullShare x1 ∗ owns (c : Thread nD τ) arg4 fullShare (out1_2 x0 x1)) -∗ K ⟨⟩))
      ⊢ wp frame (wpE (defs₀ (F := F)) Variants.none c none) E (cc1__out_proj_kernel i arg2 harg2 arg3 harg3 arg4 harg4) K := by
  simp only [cc1__out_proj_kernel_eq_skeleton]; unfold cc1__out_proj_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover1_2 _)

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => out1_2 (iblk1 V c 0 t) (iblk1 V c 1 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = out1_2 (iblk1 V c 0 t) (iblk1 V c 1 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d

def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d)))

def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t))

theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).Φ t.succ = (dat1 V c).Φ t.castSucc from rfl,
    show (dat1 V c).owesAt () t.succ = (dat1 V c).owesAt () t.castSucc from rfl,
    after1_0, after1_1, after1_2]
  iintro ⟨HΦ, Ho, ⟨%d0, H0⟩, ⟨%d1, H1⟩, ⟨%d2, H2⟩⟩
  iapply (sound_kernel1 c Set.univ _ _ _ _ _ _ _ (iblk1 V c 0 t) (iblk1 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem body_obligation1 (c : Dev nD) : BodyObligation (dat1 (F := F) V c) (defs₀ (F := F)) Variants.none () Set.univ := fun t => by
  rw [bigSep_W1, bigSep_W1]
  exact sound_body1 V c t

end Cert.KernelIdeal.Hand

end
-- ==== Proof.KIBlocks.lean ====
/-
  Each window's block at a grid point, read at an index, is the window's array at the corresponding index.
  The first kernel's grid is 8 batches by 8 row blocks of 256 rows: point `t` is batch `t / 8`, row block `t % 8`;
  its three row windows hold rows `(t % 8) * 256 …` of batch `t / 8`, its two weight windows the whole matrices.
  The second kernel's grid is 8 batches by 2 row blocks of 1024 rows: point `t` is batch `t / 2`, row block `t % 2`.
  A block's coordinate on an axis is always block index × block size + the coordinate inside the block.
-/
import proofs.«103711_j49082886259369_1_alg».proof.Proof.KIDat0
import proofs.«103711_j49082886259369_1_alg».proof.Proof.KIDat1
import Idealize.ShloMosaic.Lib.Pipeline.Value
import Idealize.ShloMosaic.Lib.ValueIdx

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Facts₀ Cert.KernelIdeal.Facts
open Idealize.ShloMosaic.ValueIdx

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The printed index maps, decided once over each grid -/

/-- First kernel: the row windows' block index is (batch, row block, 0); the weight windows' is (0, 0). -/
theorem idx_facts0 : ∀ t : Fin cfg0.N,
    win0_0.index t (0 : Fin 3) = t.val / 8 ∧ win0_0.index t (1 : Fin 3) = t.val % 8 ∧ win0_0.index t (2 : Fin 3) = 0
    ∧ win0_1.index t (0 : Fin 3) = t.val / 8 ∧ win0_1.index t (1 : Fin 3) = t.val % 8 ∧ win0_1.index t (2 : Fin 3) = 0
    ∧ win0_2.index t (0 : Fin 3) = t.val / 8 ∧ win0_2.index t (1 : Fin 3) = t.val % 8 ∧ win0_2.index t (2 : Fin 3) = 0
    ∧ win0_3.index t (0 : Fin 2) = 0 ∧ win0_3.index t (1 : Fin 2) = 0
    ∧ win0_4.index t (0 : Fin 2) = 0 ∧ win0_4.index t (1 : Fin 2) = 0 :=
  (by decide +kernel : ∀ t : Fin grid0.N, _)

/-- Second kernel: the row window's block index is (batch, row block, 0); the attention window's is (batch, 0, 0). -/
theorem idx_facts1 : ∀ t : Fin cfg1.N,
    win1_0.index t (0 : Fin 3) = t.val / 2 ∧ win1_0.index t (1 : Fin 3) = t.val % 2 ∧ win1_0.index t (2 : Fin 3) = 0
    ∧ win1_1.index t (0 : Fin 3) = t.val / 2 ∧ win1_1.index t (1 : Fin 3) = 0 ∧ win1_1.index t (2 : Fin 3) = 0 :=
  (by decide +kernel : ∀ t : Fin grid1.N, _)

/-! ## The first kernel's blocks -/

/-- Row `r`, column `j` of the first input's block at point `t` is row `(t % 8) * 256 + r` of batch `t / 8` of that input. -/
theorem iblk0_rows_0 (c : Dev nD) (t : Fin cfg0.N) (r : Fin 256) (j : Fin 1024) :
    (iblk0 V c 0 t : Vec F S1x256x1024 .f32) (ix3 (0 : Fin 1) r j)
      = (V c main_arg0 : Vec F S8x2048x1024 .f32) (ix3 (⟨t.val / 8, by have h := t.isLt; have hN : cfg0.N = 64 := N_0; omega⟩ : Fin 8) (⟨(t.val % 8) * 256 + r.val, by have := r.isLt; omega⟩ : Fin 2048) j) := by
  obtain ⟨e0, e1, e2, -⟩ := idx_facts0 t
  show V c main_arg0 (((cfg0.win 0).blk t).view.emb (ix3 (0 : Fin 1) r j)) = _
  refine congrArg _ ?_
  funext a; apply Fin.ext
  match a with
  | ⟨0, _⟩ => show win0_0.index t (0 : Fin 3) * 1 + 1 * (0 : Fin 1).val = t.val / 8; rw [e0]; simp
  | ⟨1, _⟩ => show win0_0.index t (1 : Fin 3) * 256 + 1 * r.val = t.val % 8 * 256 + r.val; omega
  | ⟨2, _⟩ => show win0_0.index t (2 : Fin 3) * 1024 + 1 * j.val = j.val; omega

/-- The same for the second input. -/
theorem iblk0_rows_1 (c : Dev nD) (t : Fin cfg0.N) (r : Fin 256) (j : Fin 1024) :
    (iblk0 V c 1 t : Vec F S1x256x1024 .f32) (ix3 (0 : Fin 1) r j)
      = (V c main_arg1 : Vec F S8x2048x1024 .f32) (ix3 (⟨t.val / 8, by have h := t.isLt; have hN : cfg0.N = 64 := N_0; omega⟩ : Fin 8) (⟨(t.val % 8) * 256 + r.val, by have := r.isLt; omega⟩ : Fin 2048) j) := by
  obtain ⟨-, -, -, e0, e1, e2, -⟩ := idx_facts0 t
  show V c main_arg1 (((cfg0.win 1).blk t).view.emb (ix3 (0 : Fin 1) r j)) = _
  refine congrArg _ ?_
  funext a; apply Fin.ext
  match a with
  | ⟨0, _⟩ => show win0_1.index t (0 : Fin 3) * 1 + 1 * (0 : Fin 1).val = t.val / 8; rw [e0]; simp
  | ⟨1, _⟩ => show win0_1.index t (1 : Fin 3) * 256 + 1 * r.val = t.val % 8 * 256 + r.val; omega
  | ⟨2, _⟩ => show win0_1.index t (2 : Fin 3) * 1024 + 1 * j.val = j.val; omega

/-- The same for the third input. -/
theorem iblk0_rows_2 (c : Dev nD) (t : Fin cfg0.N) (r : Fin 256) (j : Fin 1024) :
    (iblk0 V c 2 t : Vec F S1x256x1024 .f32) (ix3 (0 : Fin 1) r j)
      = (V c main_arg2 : Vec F S8x2048x1024 .f32) (ix3 (⟨t.val / 8, by have h := t.isLt; have hN : cfg0.N = 64 := N_0; omega⟩ : Fin 8) (⟨(t.val % 8) * 256 + r.val, by have := r.isLt; omega⟩ : Fin 2048) j) := by
  obtain ⟨-, -, -, -, -, -, e0, e1, e2, -⟩ := idx_facts0 t
  show V c main_arg2 (((cfg0.win 2).blk t).view.emb (ix3 (0 : Fin 1) r j)) = _
  refine congrArg _ ?_
  funext a; apply Fin.ext
  match a with
  | ⟨0, _⟩ => show win0_2.index t (0 : Fin 3) * 1 + 1 * (0 : Fin 1).val = t.val / 8; rw [e0]; simp
  | ⟨1, _⟩ => show win0_2.index t (1 : Fin 3) * 256 + 1 * r.val = t.val % 8 * 256 + r.val; omega
  | ⟨2, _⟩ => show win0_2.index t (2 : Fin 3) * 1024 + 1 * j.val = j.val; omega

/-- The first weight window's block is the whole matrix at every point. -/
theorem iblk0_W (c : Dev nD) (t : Fin cfg0.N) (j e : Fin 1024) :
    (iblk0 V c 3 t : Vec F S1024x1024 .bf16) (ix2 j e) = (V c main_v0 : Vec F S1024x1024 .bf16) (ix2 j e) := by
  obtain ⟨-, -, -, -, -, -, -, -, -, e0, e1, -⟩ := idx_facts0 t
  show V c main_v0 (((cfg0.win 3).blk t).view.emb (ix2 j e)) = _
  refine congrArg _ ?_
  funext a; apply Fin.ext
  match a with
  | ⟨0, _⟩ => show win0_3.index t (0 : Fin 2) * 1024 + 1 * j.val = j.val; omega
  | ⟨1, _⟩ => show win0_3.index t (1 : Fin 2) * 1024 + 1 * e.val = e.val; omega

/-- The second weight window's block is the whole matrix at every point. -/
theorem iblk0_U (c : Dev nD) (t : Fin cfg0.N) (j e : Fin 1024) :
    (iblk0 V c 4 t : Vec F S1024x1024 .bf16) (ix2 j e) = (V c main_v1 : Vec F S1024x1024 .bf16) (ix2 j e) := by
  obtain ⟨-, -, -, -, -, -, -, -, -, -, -, e0, e1⟩ := idx_facts0 t
  show V c main_v1 (((cfg0.win 4).blk t).view.emb (ix2 j e)) = _
  refine congrArg _ ?_
  funext a; apply Fin.ext
  match a with
  | ⟨0, _⟩ => show win0_4.index t (0 : Fin 2) * 1024 + 1 * j.val = j.val; omega
  | ⟨1, _⟩ => show win0_4.index t (1 : Fin 2) * 1024 + 1 * e.val = e.val; omega

/-! ## The second kernel's blocks -/

/-- Row `r`, column `d` of the row window's block at point `t` is row `(t % 2) * 1024 + r` of batch `t / 2` of the third input. -/
theorem iblk1_rows (c : Dev nD) (t : Fin cfg1.N) (r d : Fin 1024) :
    (iblk1 V c 0 t : Vec F S1x1024x1024 .f32) (ix3 (0 : Fin 1) r d)
      = (V c main_arg2 : Vec F S8x2048x1024 .f32) (ix3 (⟨t.val / 2, by have h := t.isLt; have hN : cfg1.N = 16 := N_1; omega⟩ : Fin 8) (⟨(t.val % 2) * 1024 + r.val, by have := r.isLt; omega⟩ : Fin 2048) d) := by
  obtain ⟨e0, e1, e2, -⟩ := idx_facts1 t
  show V c main_arg2 (((cfg1.win 0).blk t).view.emb (ix3 (0 : Fin 1) r d)) = _
  refine congrArg _ ?_
  funext a; apply Fin.ext
  match a with
  | ⟨0, _⟩ => show win1_0.index t (0 : Fin 3) * 1 + 1 * (0 : Fin 1).val = t.val / 2; rw [e0]; simp
  | ⟨1, _⟩ => show win1_0.index t (1 : Fin 3) * 1024 + 1 * r.val = t.val % 2 * 1024 + r.val; omega
  | ⟨2, _⟩ => show win1_0.index t (2 : Fin 3) * 1024 + 1 * d.val = d.val; omega

/-- The attention window's block at point `t` is the whole matrix of batch `t / 2`. -/
theorem iblk1_attn (c : Dev nD) (t : Fin cfg1.N) (d e : Fin 1024) :
    (iblk1 V c 1 t : Vec F S1x1024x1024 .bf16) (ix3 (0 : Fin 1) d e)
      = (V c main_v14 : Vec F S8x1024x1024 .bf16) (ix3 (⟨t.val / 2, by have h := t.isLt; have hN : cfg1.N = 16 := N_1; omega⟩ : Fin 8) d e) := by
  obtain ⟨-, -, -, e0, e1, e2⟩ := idx_facts1 t
  show V c main_v14 (((cfg1.win 1).blk t).view.emb (ix3 (0 : Fin 1) d e)) = _
  refine congrArg _ ?_
  funext a; apply Fin.ext
  match a with
  | ⟨0, _⟩ => show win1_1.index t (0 : Fin 3) * 1 + 1 * (0 : Fin 1).val = t.val / 2; rw [e0]; simp
  | ⟨1, _⟩ => show win1_1.index t (1 : Fin 3) * 1024 + 1 * d.val = d.val; omega
  | ⟨2, _⟩ => show win1_1.index t (2 : Fin 3) * 1024 + 1 * e.val = e.val; omega

end Cert.KernelIdeal.Hand

end
-- ==== Proof.KICover.lean ====
/-
  From blocks to arrays. A kernel's output window writes its staging buffer back into one block of the output array at
  every flushing point. Given, for each flushing point, what the staging buffer holds there as the matching block of one
  whole-array function, the array after all write-backs is that function: each write-back lands the block where the
  function says, and the flushing points' blocks cover every index of the array.

  First kernel: grid 8 x 8, point t = 8 b + s; the scores array [8, 1024, 1024] is written in blocks [1, 1024, 1024] at
  block index (b, 0, 0), at the last row block s = 7 of each batch b. Second kernel: grid 8 x 2, point t = 2 b + s; the
  result array [8, 2048, 1024] is written in blocks [1, 1024, 1024] at block index (b, s, 0), at every point.
-/
import proofs.«103711_j49082886259369_1_alg».proof.Proof.KIDat0
import proofs.«103711_j49082886259369_1_alg».proof.Proof.KIDat1
import Idealize.ShloMosaic.Lib.Pipeline.Value
import Idealize.ShloMosaic.Lib.ValueIdx

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Facts₀ Cert.KernelIdeal.Facts
open Idealize.ShloMosaic.ValueIdx

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The first kernel's scores array -/

/-- A point's batch is below the number of batches. -/
theorem batch0_lt (t : Fin cfg0.N) : t.val / 8 < 8 := by
  have h : t.val < grid0.N := t.isLt
  rw [N_0] at h; omega

/-- The output window's block index at point `t`: the batch `t / 8` on the first axis, zero on the others. -/
theorem idx0_5 : ∀ t : Fin cfg0.N, win0_5.index t (0 : Fin 3) = t.val / 8 ∧ win0_5.index t (1 : Fin 3) = 0
    ∧ win0_5.index t (2 : Fin 3) = 0 :=
  (by decide +kernel : ∀ t : Fin grid0.N, _)

/-- A staging buffer that agrees, element by element, with batch `t / 8` of a whole-array function is, cut to the
    block, that function's block at point `t`. -/
theorem cut0_5_eq (X : Vec F S1x1024x1024 .f32) (S : Vec F S8x1024x1024 .f32) (t : Fin cfg0.N)
    (h : ∀ (d e : Fin 1024), X (ix3 (0 : Fin 1) d e) = S (ix3 (⟨t.val / 8, batch0_lt t⟩ : Fin 8) d e)) :
    (cfg0.win 5).cut (grid0.coords t) X = ((cfg0.win 5).blk t).view.read (Elt F) S := by
  obtain ⟨e0, e1, e2⟩ := idx0_5 t
  funext j
  rw [View.read_apply]
  suffices H : ∀ j : S1x1024x1024.Idx, X j = S (((cfg0.win 5).blk t).view.emb j) from H j
  intro j
  obtain ⟨a, d, e, rfl⟩ : ∃ a d e, j = ix3 a d e := ⟨j 0, j 1, j 2, eq_ix3 j⟩
  have ha : a = 0 := Fin.ext (by have := a.isLt; omega)
  subst ha
  rw [h d e]
  congr 1
  funext b
  apply Fin.ext
  match b with
  | ⟨0, _⟩ => show t.val / 8 = win0_5.index t (0 : Fin 3) * 1 + 1 * 0; omega
  | ⟨1, _⟩ => show d.val = win0_5.index t (1 : Fin 3) * 1024 + 1 * d.val; omega
  | ⟨2, _⟩ => show e.val = win0_5.index t (2 : Fin 3) * 1024 + 1 * e.val; omega

/-- What a flushing point of the first kernel writes back is its block of `S`. -/
theorem flushed0_5 (c : Dev nD) (S : Vec F S8x1024x1024 .f32)
    (hS : ∀ (t : Fin cfg0.N), t.val % 8 = 7 → ∀ (d e : Fin 1024),
      (outsAt0 V c t.val t.isLt).1 (ix3 (0 : Fin 1) d e) = S (ix3 (⟨t.val / 8, batch0_lt t⟩ : Fin 8) d e))
    (t : Fin cfg0.N) (hf : t.val % 8 = 7) :
    (dat0 V c).flushed 5 t = ((cfg0.win 5).blk t).view.read (Elt F) S := by
  show (cfg0.win 5).cut (grid0.coords t) ((dat0 V c).after 5 t) = _
  rw [after0_5]
  exact cut0_5_eq _ S t (hS t hf)

/-- An index of the scores array is in point `t`'s block iff each coordinate is in the block's range on its axis. -/
theorem mem_blk0_5 (t : Fin cfg0.N) (i : S8x1024x1024.Idx) :
    i ∈ ((cfg0.win 5).blk t).view.set ↔ ∀ a : Fin 3, win0_5.index t a * S1x1024x1024.size a ≤ (i a).val
      ∧ (i a).val < win0_5.index t a * S1x1024x1024.size a + S1x1024x1024.size a := by
  show i ∈ ((View.whole main_v2).slice (win0_5.rect t)).set ↔ _
  rw [View.set_slice_whole, Rect.mem_set_unit]
  exact Iff.rfl

/-- Every index `(b, d, e)` of the scores array lies in the block of the flushing point `8 b + 7`. -/
theorem cover0_5 (i : S8x1024x1024.Idx) :
    ∃ t : Fin cfg0.N, (cfg0.win 5).flush t = true ∧ i ∈ ((cfg0.win 5).blk t).view.set := by
  have hi0 : (i 0).val < 8 := (i 0).isLt
  have hi1 : (i 1).val < 1024 := (i 1).isLt
  have hi2 : (i 2).val < 1024 := (i 2).isLt
  have hlt : 8 * (i 0).val + 7 < cfg0.N := by show _ < grid0.N; rw [N_0]; omega
  obtain ⟨t, ht⟩ : ∃ t : Fin cfg0.N, t.val = 8 * (i 0).val + 7 := ⟨⟨_, hlt⟩, rfl⟩
  obtain ⟨e0, e1, e2⟩ := idx0_5 t
  refine ⟨t, (flush0_5 t).mpr (by omega), ?_⟩
  rw [mem_blk0_5]
  intro a
  match a with
  | ⟨0, _⟩ => show win0_5.index t (0 : Fin 3) * 1 ≤ (i 0).val ∧ (i 0).val < win0_5.index t (0 : Fin 3) * 1 + 1; omega
  | ⟨1, _⟩ => show win0_5.index t (1 : Fin 3) * 1024 ≤ (i 1).val ∧ (i 1).val < win0_5.index t (1 : Fin 3) * 1024 + 1024; omega
  | ⟨2, _⟩ => show win0_5.index t (2 : Fin 3) * 1024 ≤ (i 2).val ∧ (i 2).val < win0_5.index t (2 : Fin 3) * 1024 + 1024; omega

/-- THE SCORES ARRAY after the first kernel: `S`, when at the last row block of every batch the staging buffer holds
    that batch of `S`. -/
theorem final0 (c : Dev nD) (S : Vec F S8x1024x1024 .f32)
    (hS : ∀ (t : Fin cfg0.N), t.val % 8 = 7 → ∀ (d e : Fin 1024),
      (outsAt0 V c t.val t.isLt).1 (ix3 (0 : Fin 1) d e) = S (ix3 (⟨t.val / 8, batch0_lt t⟩ : Fin 8) d e)) :
    (dat0 V c).arrAt 5 cfg0.N = S :=
  (dat0 V c).arrAt_eq_of_cover 5 S (fun t hf => flushed0_5 V c S hS t ((flush0_5 t).mp hf)) cover0_5

/-! ## The second kernel's result array -/

/-- A point's batch is below the number of batches. -/
theorem batch1_lt (t : Fin cfg1.N) : t.val / 2 < 8 := by
  have h : t.val < grid1.N := t.isLt
  rw [N_1] at h; omega

/-- A row of a point's block is a row of the array. -/
theorem row1_lt (t : Fin cfg1.N) (r : Fin 1024) : (t.val % 2) * 1024 + r.val < 2048 := by
  have := r.isLt; omega

/-- The output window's block index at point `t`: the batch `t / 2`, the row block `t % 2`, zero on the last axis. -/
theorem idx1_2 : ∀ t : Fin cfg1.N, win1_2.index t (0 : Fin 3) = t.val / 2 ∧ win1_2.index t (1 : Fin 3) = t.val % 2
    ∧ win1_2.index t (2 : Fin 3) = 0 :=
  (by decide +kernel : ∀ t : Fin grid1.N, _)

/-- A staging buffer that agrees, element by element, with rows `1024 (t % 2) …` of batch `t / 2` of a whole-array
    function is, cut to the block, that function's block at point `t`. -/
theorem cut1_2_eq (X : Vec F S1x1024x1024 .f32) (O : Vec F S8x2048x1024 .f32) (t : Fin cfg1.N)
    (h : ∀ (r e : Fin 1024), X (ix3 (0 : Fin 1) r e)
      = O (ix3 (⟨t.val / 2, batch1_lt t⟩ : Fin 8) (⟨(t.val % 2) * 1024 + r.val, row1_lt t r⟩ : Fin 2048) e)) :
    (cfg1.win 2).cut (grid1.coords t) X = ((cfg1.win 2).blk t).view.read (Elt F) O := by
  obtain ⟨e0, e1, e2⟩ := idx1_2 t
  funext j
  rw [View.read_apply]
  suffices H : ∀ j : S1x1024x1024.Idx, X j = O (((cfg1.win 2).blk t).view.emb j) from H j
  intro j
  obtain ⟨a, r, e, rfl⟩ : ∃ a r e, j = ix3 a r e := ⟨j 0, j 1, j 2, eq_ix3 j⟩
  have ha : a = 0 := Fin.ext (by have := a.isLt; omega)
  subst ha
  rw [h r e]
  congr 1
  funext b
  apply Fin.ext
  match b with
  | ⟨0, _⟩ => show t.val / 2 = win1_2.index t (0 : Fin 3) * 1 + 1 * 0; omega
  | ⟨1, _⟩ => show (t.val % 2) * 1024 + r.val = win1_2.index t (1 : Fin 3) * 1024 + 1 * r.val; omega
  | ⟨2, _⟩ => show e.val = win1_2.index t (2 : Fin 3) * 1024 + 1 * e.val; omega

/-- What a point of the second kernel writes back is its block of `O`. -/
theorem flushed1_2 (c : Dev nD) (O : Vec F S8x2048x1024 .f32)
    (hO : ∀ (t : Fin cfg1.N) (r e : Fin 1024), out1_2 (iblk1 V c 0 t) (iblk1 V c 1 t) (ix3 (0 : Fin 1) r e)
      = O (ix3 (⟨t.val / 2, batch1_lt t⟩ : Fin 8) (⟨(t.val % 2) * 1024 + r.val, row1_lt t r⟩ : Fin 2048) e))
    (t : Fin cfg1.N) :
    (dat1 V c).flushed 2 t = ((cfg1.win 2).blk t).view.read (Elt F) O := by
  show (cfg1.win 2).cut (grid1.coords t) ((dat1 V c).after 2 t) = _
  rw [after1_2]
  exact cut1_2_eq _ O t (hO t)

/-- An index of the result array is in point `t`'s block iff each coordinate is in the block's range on its axis. -/
theorem mem_blk1_2 (t : Fin cfg1.N) (i : S8x2048x1024.Idx) :
    i ∈ ((cfg1.win 2).blk t).view.set ↔ ∀ a : Fin 3, win1_2.index t a * S1x1024x1024.size a ≤ (i a).val
      ∧ (i a).val < win1_2.index t a * S1x1024x1024.size a + S1x1024x1024.size a := by
  show i ∈ ((View.whole main_v15).slice (win1_2.rect t)).set ↔ _
  rw [View.set_slice_whole, Rect.mem_set_unit]
  exact Iff.rfl

/-- Every index `(b, s, e)` of the result array lies in the block of the point `2 b + s / 1024`. -/
theorem cover1_2_arr (i : S8x2048x1024.Idx) :
    ∃ t : Fin cfg1.N, (cfg1.win 2).flush t = true ∧ i ∈ ((cfg1.win 2).blk t).view.set := by
  have hi0 : (i 0).val < 8 := (i 0).isLt
  have hi1 : (i 1).val < 2048 := (i 1).isLt
  have hi2 : (i 2).val < 1024 := (i 2).isLt
  have hlt : 2 * (i 0).val + (i 1).val / 1024 < cfg1.N := by show _ < grid1.N; rw [N_1]; omega
  obtain ⟨t, ht⟩ : ∃ t : Fin cfg1.N, t.val = 2 * (i 0).val + (i 1).val / 1024 := ⟨⟨_, hlt⟩, rfl⟩
  obtain ⟨e0, e1, e2⟩ := idx1_2 t
  refine ⟨t, flush1_2 t, ?_⟩
  rw [mem_blk1_2]
  intro a
  match a with
  | ⟨0, _⟩ => show win1_2.index t (0 : Fin 3) * 1 ≤ (i 0).val ∧ (i 0).val < win1_2.index t (0 : Fin 3) * 1 + 1; omega
  | ⟨1, _⟩ => show win1_2.index t (1 : Fin 3) * 1024 ≤ (i 1).val ∧ (i 1).val < win1_2.index t (1 : Fin 3) * 1024 + 1024; omega
  | ⟨2, _⟩ => show win1_2.index t (2 : Fin 3) * 1024 ≤ (i 2).val ∧ (i 2).val < win1_2.index t (2 : Fin 3) * 1024 + 1024; omega

/-- THE RESULT ARRAY after the second kernel: `O`, when at every point the staging buffer holds that point's rows of
    its batch of `O`. -/
theorem final1 (c : Dev nD) (O : Vec F S8x2048x1024 .f32)
    (hO : ∀ (t : Fin cfg1.N) (r e : Fin 1024), out1_2 (iblk1 V c 0 t) (iblk1 V c 1 t) (ix3 (0 : Fin 1) r e)
      = O (ix3 (⟨t.val / 2, batch1_lt t⟩ : Fin 8) (⟨(t.val % 2) * 1024 + r.val, row1_lt t r⟩ : Fin 2048) e)) :
    (dat1 V c).arrAt 2 cfg1.N = O :=
  (dat1 V c).arrAt_eq_of_cover 2 O (fun t _ => flushed1_2 V c O hO t) cover1_2_arr

end Cert.KernelIdeal.Hand

end
-- ==== Proof.Spec.lean ====
/-
  The mathematics both programs compute, over the extended reals, as one function of the five argument arrays
  q, k, v : [8, 2048, 1024] and W, U : [1024, 1024]:

    fac[b, s, e]   = tanh( sum_d k[b, s, d] * W[d, e]  +  sum_d q[b, s, d] * U[d, e] )
    score[b, d, e] = sum_s v[b, s, d] * fac[b, s, e]
    attn           = softmax of score along the batch axis b (max, subtract, exp, sum, divide: the host's chain)
    out[b, s, e]   = sum_d v[b, s, d] * attn[b, d, e]

  and the one law of sums the kernel's side needs: a sum over 2048 rows taken as eight consecutive blocks of 256,
  added up block after block starting from zero, is the whole sum (addition of extended reals is commutative and
  associative, so no finiteness is needed).
-/
import Idealize.ShloMosaic.PureOps.Ideal
import Idealize.ShloMosaic.PureOps.Ideal.Laws
import Idealize.ShloMosaic.Lib.ValueIdx

noncomputable section

open scoped BigOperators

namespace Cert.Spec

open Idealize.ShloMosaic Idealize.ShloMosaic.ValueIdx

abbrev T3 : Shape := ⟨3, ![8, 2048, 1024]⟩
abbrev T2 : Shape := ⟨2, ![1024, 1024]⟩
abbrev T8 : Shape := ⟨3, ![8, 1024, 1024]⟩
abbrev T1 : Shape := ⟨3, ![1, 1024, 1024]⟩
abbrev T0 : Shape := ⟨0, ![]⟩

/-- The activations: the hyperbolic tangent of the two projections' sum. -/
def fac (q k : FVec Ideal T3 .f32) (W U : FVec Ideal T2 .f32) (b : Fin 8) (s : Fin 2048) (e : Fin 1024) : EReal :=
  Ideal.tanh ((∑ d : Fin 1024, (k (ix3 b s d) : EReal) * (W (ix2 d e) : EReal)) + ∑ d : Fin 1024, (q (ix3 b s d) : EReal) * (U (ix2 d e) : EReal))

/-- The scores: the rows of v against the activations, contracted over the 2048 rows. -/
def score (q k v : FVec Ideal T3 .f32) (W U : FVec Ideal T2 .f32) (b : Fin 8) (d e : Fin 1024) : EReal :=
  ∑ s : Fin 2048, (v (ix3 b s d) : EReal) * fac q k W U b s e

/-- The scores as an array. -/
def scoreV (q k v : FVec Ideal T3 .f32) (W U : FVec Ideal T2 .f32) : FVec Ideal T8 .f32 :=
  fun j => score q k v W U (j 0) (j 1) (j 2)

/-- The softmax along the batch axis, as the chain of host operations both programs apply to the scores: the maximum
    over the batch (from minus infinity), its maximum with minus infinity, subtracted; the exponential; its sum over the
    batch (from zero); the quotient. -/
def smax (hred : T8.ReducesTo [0] T2) (h0 : 0 < T0.numel) (hb0 : T0.BroadcastsInDim T2 (![] : Fin 0 → Fin T2.rank))
    (hb1 : T2.BroadcastsInDim T1 (![1, 2] : Fin 2 → Fin T1.rank)) (hb2 : T1.BroadcastsInDim T8 (![0, 1, 2] : Fin 3 → Fin T8.rank))
    (s : FVec Ideal T8 .f32) : FVec Ideal T8 .f32 :=
  let e : FVec Ideal T8 .f32 := Host.exp (subf s (broadcastInDim T8 ![0, 1, 2] hb2 (broadcastInDim T1 ![1, 2] hb1
    (maximumf (broadcastInDim T2 ![] hb0 (constant (F := Ideal) T0 .f32 0xFF800000#32))
      (Host.reduce FloatOps.maximumf s (constant (F := Ideal) T0 .f32 0xFF800000#32) hred h0)))))
  Host.divf e (broadcastInDim T8 ![0, 1, 2] hb2 (broadcastInDim T1 ![1, 2] hb1
    (Host.reduceAdd e (constant (F := Ideal) T0 .f32 0x00000000#32) hred h0)))

/-- The result at an index: the rows of v against the attention weights. -/
def out (v : FVec Ideal T3 .f32) (a : FVec Ideal T8 .f32) (b : Fin 8) (s : Fin 2048) (e : Fin 1024) : EReal :=
  ∑ d : Fin 1024, (v (ix3 b s d) : EReal) * (a (ix3 b d e) : EReal)

/-- The whole computation as one function of the argument arrays. -/
def G (hred : T8.ReducesTo [0] T2) (h0 : 0 < T0.numel) (hb0 : T0.BroadcastsInDim T2 (![] : Fin 0 → Fin T2.rank))
    (hb1 : T2.BroadcastsInDim T1 (![1, 2] : Fin 2 → Fin T1.rank)) (hb2 : T1.BroadcastsInDim T8 (![0, 1, 2] : Fin 3 → Fin T8.rank))
    (q k v : FVec Ideal T3 .f32) (W U : FVec Ideal T2 .f32) : FVec Ideal T3 .f32 :=
  fun i => out v (smax hred h0 hb0 hb1 hb2 (scoreV q k v W U)) (i 0) (i 1) (i 2)

/-- Eight consecutive blocks of 256 rows, added up from zero one after the other, are all 2048 rows. -/
def blockFold (f : Fin 2048 → EReal) : (n : ℕ) → n ≤ 8 → EReal
  | 0, _ => 0
  | n + 1, h => blockFold f n (Nat.le_of_succ_le h) + ∑ r : Fin 256, f ⟨n * 256 + r.val, by have := r.isLt; omega⟩

theorem blockFold_eq (f : Fin 2048 → EReal) : ∀ (n : ℕ) (h : n ≤ 8),
    blockFold f n h = ∑ p : Fin n × Fin 256, f ⟨p.1.val * 256 + p.2.val, by have := p.1.isLt; have := p.2.isLt; omega⟩
  | 0, _ => by simp [blockFold]
  | n + 1, h => by
    rw [blockFold, blockFold_eq f n (Nat.le_of_succ_le h), Fintype.sum_prod_type, Fintype.sum_prod_type]
    conv_rhs => rw [Fin.sum_univ_castSucc]
    rfl

theorem blockFold_all (f : Fin 2048 → EReal) : blockFold f 8 le_rfl = ∑ s : Fin 2048, f s := by
  rw [blockFold_eq]
  refine Fintype.sum_equiv ⟨fun p => ⟨p.1.val * 256 + p.2.val, by have := p.1.isLt; have := p.2.isLt; omega⟩,
    fun s => (⟨s.val / 256, by have := s.isLt; omega⟩, ⟨s.val % 256, Nat.mod_lt _ (by norm_num)⟩), fun p => ?_, fun s => ?_⟩ _ _ (fun _ => rfl)
  · have h1 := p.1.isLt; have h2 := p.2.isLt
    refine Prod.ext (Fin.ext ?_) (Fin.ext ?_)
    · show (p.1.val * 256 + p.2.val) / 256 = p.1.val; omega
    · show (p.1.val * 256 + p.2.val) % 256 = p.2.val; omega
  · refine Fin.ext ?_
    show s.val / 256 * 256 + s.val % 256 = s.val; omega

end Cert.Spec

end
-- ==== Proof.KIAcc.lean ====
/-
  The two kernels' output arrays in closed form, over the extended reals, from the contents the regions are entered
  with. First kernel: within a batch b the accumulator after row block si is the sum of the first si + 1 blocks'
  products, so after the last block it is the whole contraction over the 2048 rows, and that is what the batch's one
  write-back puts in the scores array. Second kernel: every point writes one block of rows of v times the batch's
  attention matrix.
-/
import proofs.«103711_j49082886259369_1_alg».proof.Proof.KIPieces
import proofs.«103711_j49082886259369_1_alg».proof.Proof.KIPay
import proofs.«103711_j49082886259369_1_alg».proof.Proof.KIBlocks
import proofs.«103711_j49082886259369_1_alg».proof.Proof.KICover
import proofs.«103711_j49082886259369_1_alg».proof.Proof.Spec

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Facts₀ Cert.KernelIdeal.Facts

open Idealize.ShloMosaic.ValueIdx Cert.KernelIdeal.PayVal
open scoped BigOperators

/-! ## The closed forms, over arrays -/

/-- The activations. -/
def facE (q k : Vec Ideal S8x2048x1024 .f32) (W U : Vec Ideal S1024x1024 .bf16) (b : Fin 8) (s : Fin 2048) (e : Fin 1024) : EReal :=
  Ideal.tanh ((∑ j : Fin 1024, (k (ix3 b s j) : EReal) * (W (ix2 j e) : EReal)) + ∑ j : Fin 1024, (q (ix3 b s j) : EReal) * (U (ix2 j e) : EReal))

/-- One row's term of the contraction. -/
def termE (q k v : Vec Ideal S8x2048x1024 .f32) (W U : Vec Ideal S1024x1024 .bf16) (b : Fin 8) (d e : Fin 1024) : Fin 2048 → EReal :=
  fun s => (v (ix3 b s d) : EReal) * facE q k W U b s e

/-- The scores: the whole contraction over the 2048 rows. -/
def scoresE (q k v : Vec Ideal S8x2048x1024 .f32) (W U : Vec Ideal S1024x1024 .bf16) : Vec Ideal S8x1024x1024 .f32 :=
  fun j => ∑ s : Fin 2048, termE q k v W U (j 0) (j 1) (j 2) s

/-- The result: the rows of v against a batch's attention matrix. -/
def resultE (v : Vec Ideal S8x2048x1024 .f32) (a : Vec Ideal S8x1024x1024 .bf16) : Vec Ideal S8x2048x1024 .f32 :=
  fun i => ∑ d : Fin 1024, (v (ix3 (i 0) (i 1) d) : EReal) * (a (ix3 (i 0) d (i 2)) : EReal)

/-- With weight matrices that agree entry by entry, the scores are the specification's. -/
theorem scoresE_eq (q k v : Vec Ideal S8x2048x1024 .f32) (Wb Ub : Vec Ideal S1024x1024 .bf16) (W U : Vec Ideal S1024x1024 .f32)
    (hW : ∀ j e : Fin 1024, (Wb (ix2 j e) : EReal) = (W (ix2 j e) : EReal)) (hU : ∀ j e : Fin 1024, (Ub (ix2 j e) : EReal) = (U (ix2 j e) : EReal)) :
    scoresE q k v Wb Ub = Cert.Spec.scoreV q k v W U := by
  funext j
  obtain ⟨b, d, e, rfl⟩ : ∃ (b : Fin 8) (d e : Fin 1024), j = ix3 b d e := ⟨j 0, j 1, j 2, eq_ix3 j⟩
  show (∑ s : Fin 2048, termE q k v Wb Ub b d e s) = Cert.Spec.score q k v W U b d e
  unfold termE facE Cert.Spec.score Cert.Spec.fac
  simp only [hW, hU]

/-- With an attention array that agrees entry by entry, the result is the specification's. -/
theorem resultE_eq (v : Vec Ideal S8x2048x1024 .f32) (a : Vec Ideal S8x1024x1024 .bf16) (A : FVec Ideal Cert.Spec.T8 .f32)
    (h : ∀ (b : Fin 8) (d e : Fin 1024), (a (ix3 b d e) : EReal) = (A (ix3 b d e) : EReal)) :
    resultE v a = fun i => Cert.Spec.out v A (i 0) (i 1) (i 2) := by
  funext i
  obtain ⟨b, s, e, rfl⟩ : ∃ (b : Fin 8) (s : Fin 2048) (e : Fin 1024), i = ix3 b s e := ⟨i 0, i 1, i 2, eq_ix3 i⟩
  show (∑ d : Fin 1024, (v (ix3 b s d) : EReal) * (a (ix3 b d e) : EReal)) = Cert.Spec.out v A b s e
  unfold Cert.Spec.out
  simp only [h]

variable (V : (c : Dev nD) → (b : Ref sig .tc) → Buf (Elt Ideal) ((c : Thread nD τ).loc b))

/-! ## The first kernel -/

/-- One point's step: the accumulator's entry grows by the block's 256 terms. -/
theorem step_eq (c : Dev nD) (t : Fin cfg0.N) (b : Fin 8) (si : ℕ) (hsi : si < 8) (ht : t.val = 8 * b.val + si)
    (acc : Vec Ideal S1024x1024 .f32) (d e : Fin 1024) :
    (k0_pay3 (iblk0 V c 0 t) (iblk0 V c 1 t) (iblk0 V c 2 t) (iblk0 V c 3 t) (iblk0 V c 4 t) acc (ix2 d e) : EReal)
      = (acc (ix2 d e) : EReal) + ∑ r : Fin 256, termE (V c main_arg0) (V c main_arg1) (V c main_arg2) (V c main_v0) (V c main_v1) b d e ⟨si * 256 + r.val, by have := r.isLt; omega⟩ := by
  refine (pay3_apply (iblk0 V c 0 t) (iblk0 V c 1 t) (iblk0 V c 2 t) (iblk0 V c 3 t) (iblk0 V c 4 t) acc d e).trans ?_
  have hb : (⟨t.val / 8, by have h := t.isLt; have hN : cfg0.N = 64 := N_0; omega⟩ : Fin 8) = b := Fin.ext (by show t.val / 8 = b.val; omega)
  have hs : ∀ r : Fin 256, (⟨(t.val % 8) * 256 + r.val, by have := r.isLt; omega⟩ : Fin 2048) = ⟨si * 256 + r.val, by have := r.isLt; omega⟩ :=
    fun r => Fin.ext (by show (t.val % 8) * 256 + r.val = si * 256 + r.val; have : t.val % 8 = si := by omega
                         rw [this])
  refine congrArg (fun z => (acc (ix2 d e) : EReal) + z) (Finset.sum_congr rfl fun r _ => ?_)
  unfold termE facE
  simp only [iblk0_rows_0, iblk0_rows_1, iblk0_rows_2, iblk0_W, iblk0_U, hb, hs]

/-- The accumulator's recursion, in one equation at every point. -/
theorem accAt_unfold (c : Dev nD) : ∀ (n : ℕ) (h : n < cfg0.N),
    accAt V c n h = k0_pay3 (iblk0 V c 0 ⟨n, h⟩) (iblk0 V c 1 ⟨n, h⟩) (iblk0 V c 2 ⟨n, h⟩) (iblk0 V c 3 ⟨n, h⟩) (iblk0 V c 4 ⟨n, h⟩)
      (if n % 8 = 0 then k0_pay2 (F := Ideal) else accAt V c (n - 1) (Nat.lt_of_le_of_lt (Nat.sub_le _ _) h))
  | 0, h => by unfold accAt; rw [if_pos (Nat.zero_mod _)]
  | n + 1, h => by
    conv_lhs => unfold accAt
    rfl

/-- Within batch `b`, after row block `si` the accumulator holds the first `si + 1` blocks' terms added up from zero. -/
theorem accAt_eq (c : Dev nD) (b : Fin 8) : ∀ (si : ℕ) (hsi : si < 8) (d e : Fin 1024),
    (accAt V c (8 * b.val + si) (by have := b.isLt; have hN : cfg0.N = 64 := N_0; omega) (ix2 d e) : EReal)
      = Cert.Spec.blockFold (termE (V c main_arg0) (V c main_arg1) (V c main_arg2) (V c main_v0) (V c main_v1) b d e) (si + 1) (by omega)
  | 0, hsi, d, e => by
    rw [accAt_unfold, if_pos (by omega)]
    rw [step_eq V c ⟨8 * b.val + 0, _⟩ b 0 hsi rfl, pay2_apply]
    rfl
  | si + 1, hsi, d, e => by
    rw [accAt_unfold, if_neg (by omega)]
    rw [step_eq V c ⟨8 * b.val + (si + 1), _⟩ b (si + 1) hsi rfl]
    have ih := accAt_eq c b si (by omega) d e
    show (accAt V c (8 * b.val + si) _ (ix2 d e) : EReal) + _ = _
    rw [ih]
    rfl

theorem accAt_congr (c : Dev nD) (n n' : ℕ) (h : n < cfg0.N) (h' : n' < cfg0.N) (e : n = n') : accAt V c n h = accAt V c n' h' := by
  subst e; rfl

/-- After all write-backs the scores array holds the whole contraction. -/
theorem scores_final (c : Dev nD) : (dat0 V c).arrAt 5 cfg0.N = scoresE (V c main_arg0) (V c main_arg1) (V c main_arg2) (V c main_v0) (V c main_v1) := by
  refine final0 V c (scoresE (V c main_arg0) (V c main_arg1) (V c main_arg2) (V c main_v0) (V c main_v1)) fun t ht d e => ?_
  have hN : cfg0.N = 64 := N_0
  have hlt := t.isLt
  rw [outsAt0_eq]
  show (k0_pay1 (accAt V c t.val t.isLt) (ix3 (0 : Fin 1) d e) : EReal) = _
  rw [pay1_apply]
  have hb : t.val / 8 < 8 := by omega
  rw [accAt_congr V c t.val (8 * (⟨t.val / 8, hb⟩ : Fin 8).val + 7) t.isLt (by show 8 * (t.val / 8) + 7 < cfg0.N; omega) (by show t.val = 8 * (t.val / 8) + 7; omega)]
  rw [accAt_eq V c ⟨t.val / 8, hb⟩ 7 (by omega) d e]
  exact Cert.Spec.blockFold_all _

/-! ## The second kernel -/

/-- The one whole-buffer store leaves its payload. -/
theorem out1_2_eq (x0 : Vec Ideal S1x1024x1024 .f32) (x1 : Vec Ideal S1x1024x1024 .bf16) : out1_2 x0 x1 = k1_pay1 x0 x1 := by
  unfold out1_2
  rw [View.canon_unit_zero hz3]
  simp only [View.ld_unit_zero (S := S1x1024x1024) hz3]

/-- After all write-backs the result array holds the rows of v against the attention matrices. -/
theorem result_final (c : Dev nD) : (dat1 V c).arrAt 2 cfg1.N = resultE (V c main_arg2) (V c main_v14) := by
  refine final1 V c (resultE (V c main_arg2) (V c main_v14)) fun t r e => ?_
  rw [out1_2_eq]
  refine (pay1k_apply (iblk1 V c 0 t) (iblk1 V c 1 t) r e).trans ?_
  unfold resultE
  simp only [iblk1_rows, iblk1_attn]

end Cert.KernelIdeal.Hand

end
-- ==== Proof.KIRun.lean ====
/-
  The whole program as a run: the two host stretches and the two kernel regions in order. The buffer contents at each
  boundary are a fold from the launch memory: a host stretch applies its operations, a region leaves its arrays at what
  its write-backs leave and every other buffer as it found it. Every weakly fair execution terminates with every
  unscoped buffer at the last boundary's contents; the argument arrays, which nothing writes, end as launched.
-/
import proofs.«103711_j49082886259369_1_alg».proof.Proof.KIDat0
import proofs.«103711_j49082886259369_1_alg».proof.Proof.KIDat1
import proofs.«103711_j49082886259369_1_alg».proof.Proof.Gen.KernelIdeal.Regions

set_option maxRecDepth 16384

noncomputable section

namespace Cert.KernelIdeal.Hand

open Cert.KernelIdeal Cert.KernelIdeal.Gen
open Cert.KernelIdeal.Gen (hostOps0_writes hostOps1_writes hostOps0_W hostOps1_W hostOps0_fresh hostOps1_fresh adm)
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Facts₀ Cert.KernelIdeal.Facts

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary -/

abbrev W0 : Dev nD → Valuation τ sig (Elt F) := fun c b => (s₀ m ρ).mem ((c : Dev nD), b)
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev V2 : (c : Dev nD) → (b : Ref sig .tc) → Buf (Elt F) ((c : Thread nD τ).loc b) := fun c b => W2 m ρ c b
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

abbrev W3 : Dev nD → Valuation τ sig (Elt F) := fun c => StableHlo.after hostOps1 (W2 m ρ c)
abbrev V3 : (c : Dev nD) → (b : Ref sig .tc) → Buf (Elt F) ((c : Thread nD τ).loc b) := fun c b => W3 m ρ c b
def W4 (c : Dev nD) : Valuation τ sig (Elt F) :=
  Pipeline.withArrays spec1 c (W3 m ρ c) fun w => (dat1 (V3 m ρ) c).arrAt w cfg1.N
theorem W4_arr (c : Dev nD) (w : Fin cfg1.W) :
    W4 m ρ c (Proc.devRef .tc (Pipeline.arrRef spec1 w)) = (dat1 (V3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
abbrev V4 : (c : Dev nD) → (b : Ref sig .tc) → Buf (Elt F) ((c : Thread nD τ).loc b) := fun c b => W4 m ρ c b
theorem hF1 (c : Dev nD) (w : Fin cfg1.W) : (dat1 (V3 m ρ) c).arrAt w cfg1.N = V4 m ρ c (Pipeline.arrRef spec1 w) :=
  (W4_arr m ρ c w).symm
theorem hrest1 (c : Dev nD) : ∀ b, b ∉ Finset.univ.image (Pipeline.arrRef spec1) → V4 m ρ c b = V3 m ρ c b :=
  fun b hb => W4_of_ne m ρ c b fun w e => hb (Finset.mem_image.mpr ⟨w, Finset.mem_univ _, e⟩)

/-! ## The arguments end as launched -/

theorem W4_main_arg0 (c : Dev nD) : W4 m ρ c (Proc.devRef .tc main_arg0) = m ((c : Thread nD τ).loc main_arg0) :=
  calc W4 m ρ c (Proc.devRef .tc main_arg0)
    _ = W3 m ρ c (Proc.devRef .tc main_arg0) := W4_of_ne m ρ c main_arg0 (by decide)
    _ = W2 m ρ c (Proc.devRef .tc main_arg0) := StableHlo.after_of_writes_sub hostOps1 _ hostOps1_writes (by decide : main_arg0 ∉ hostOps1_W)
    _ = W1 m ρ c (Proc.devRef .tc main_arg0) := (W2_arr m ρ c 0).trans (((dat0 (V1 m ρ) c).arrAt_in 0 rfl _).trans (A_eq0 (V1 m ρ) c 0))
    _ = W0 m ρ c (Proc.devRef .tc main_arg0) := StableHlo.after_of_writes_sub hostOps0 _ hostOps0_writes (by decide : main_arg0 ∉ hostOps0_W)
    _ = m ((c : Thread nD τ).loc main_arg0) := rfl

theorem W4_main_arg1 (c : Dev nD) : W4 m ρ c (Proc.devRef .tc main_arg1) = m ((c : Thread nD τ).loc main_arg1) :=
  calc W4 m ρ c (Proc.devRef .tc main_arg1)
    _ = W3 m ρ c (Proc.devRef .tc main_arg1) := W4_of_ne m ρ c main_arg1 (by decide)
    _ = W2 m ρ c (Proc.devRef .tc main_arg1) := StableHlo.after_of_writes_sub hostOps1 _ hostOps1_writes (by decide : main_arg1 ∉ hostOps1_W)
    _ = W1 m ρ c (Proc.devRef .tc main_arg1) := (W2_arr m ρ c 1).trans (((dat0 (V1 m ρ) c).arrAt_in 1 rfl _).trans (A_eq0 (V1 m ρ) c 1))
    _ = W0 m ρ c (Proc.devRef .tc main_arg1) := StableHlo.after_of_writes_sub hostOps0 _ hostOps0_writes (by decide : main_arg1 ∉ hostOps0_W)
    _ = m ((c : Thread nD τ).loc main_arg1) := rfl

theorem W4_main_arg2 (c : Dev nD) : W4 m ρ c (Proc.devRef .tc main_arg2) = m ((c : Thread nD τ).loc main_arg2) :=
  calc W4 m ρ c (Proc.devRef .tc main_arg2)
    _ = W3 m ρ c (Proc.devRef .tc main_arg2) := (W4_arr m ρ c 0).trans (((dat1 (V3 m ρ) c).arrAt_in 0 rfl _).trans (A_eq1 (V3 m ρ) c 0))
    _ = W2 m ρ c (Proc.devRef .tc main_arg2) := StableHlo.after_of_writes_sub hostOps1 _ hostOps1_writes (by decide : main_arg2 ∉ hostOps1_W)
    _ = W1 m ρ c (Proc.devRef .tc main_arg2) := (W2_arr m ρ c 2).trans (((dat0 (V1 m ρ) c).arrAt_in 2 rfl _).trans (A_eq0 (V1 m ρ) c 2))
    _ = W0 m ρ c (Proc.devRef .tc main_arg2) := StableHlo.after_of_writes_sub hostOps0 _ hostOps0_writes (by decide : main_arg2 ∉ hostOps0_W)
    _ = m ((c : Thread nD τ).loc main_arg2) := rfl

theorem W4_main_arg3 (c : Dev nD) : W4 m ρ c (Proc.devRef .tc main_arg3) = m ((c : Thread nD τ).loc main_arg3) :=
  calc W4 m ρ c (Proc.devRef .tc main_arg3)
    _ = W3 m ρ c (Proc.devRef .tc main_arg3) := W4_of_ne m ρ c main_arg3 (by decide)
    _ = W2 m ρ c (Proc.devRef .tc main_arg3) := StableHlo.after_of_writes_sub hostOps1 _ hostOps1_writes (by decide : main_arg3 ∉ hostOps1_W)
    _ = W1 m ρ c (Proc.devRef .tc main_arg3) := W2_of_ne m ρ c main_arg3 (by decide)
    _ = W0 m ρ c (Proc.devRef .tc main_arg3) := StableHlo.after_of_writes_sub hostOps0 _ hostOps0_writes (by decide : main_arg3 ∉ hostOps0_W)
    _ = m ((c : Thread nD τ).loc main_arg3) := rfl

theorem W4_main_arg4 (c : Dev nD) : W4 m ρ c (Proc.devRef .tc main_arg4) = m ((c : Thread nD τ).loc main_arg4) :=
  calc W4 m ρ c (Proc.devRef .tc main_arg4)
    _ = W3 m ρ c (Proc.devRef .tc main_arg4) := W4_of_ne m ρ c main_arg4 (by decide)
    _ = W2 m ρ c (Proc.devRef .tc main_arg4) := StableHlo.after_of_writes_sub hostOps1 _ hostOps1_writes (by decide : main_arg4 ∉ hostOps1_W)
    _ = W1 m ρ c (Proc.devRef .tc main_arg4) := W2_of_ne m ρ c main_arg4 (by decide)
    _ = W0 m ρ c (Proc.devRef .tc main_arg4) := StableHlo.after_of_writes_sub hostOps0 _ hostOps0_writes (by decide : main_arg4 ∉ hostOps0_W)
    _ = m ((c : Thread nD τ).loc main_arg4) := rfl

/-! ## The proof data family and the thread state -/

def pdats : (p : Fin 2) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V3 m ρ) c
abbrev 𝒱₀ : Variants := Variants.none
abbrev L : GSem nD τ sig → Finset Unit := fun _ => ∅
abbrev lv : GSem nD τ sig → Unit → ℕ := fun _ _ => 0
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W4 m ρ c) ∗ ∃ r, prngReg c r)

/-! ## The regions as segments -/

set_option backward.isDefEq.respectTransparency.types false in
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none]
    rw [show (pdats m ρ 0 c).Φ (Fin.last _) = (dat0 (V1 m ρ) c).Φ (Fin.last cfg0.N) from rfl]
    have h := hout0 (V1 m ρ) c
    unfold Pipeline.ΦA at h
    iintro HP
    ihave H := h $$ HP
    icases H with ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none]
    rw [show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V3 m ρ c) (V4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The run -/

abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ) ]
theorem main_run (c : Dev nD) : main (F := F) c = Pipeline.Seg.run (segs m ρ) := (main_chain c).trans (by chain_rfl)

set_option backward.isDefEq.respectTransparency.types false in
/-- Every weakly fair execution terminates, nothing faulting, with every unscoped buffer at the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W4 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c => h c)

/-- The frame: the argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c =>
    ⟨(h c _ (mem_uc main_arg0 (by decide))).trans (W4_main_arg0 m ρ c),
     (h c _ (mem_uc main_arg1 (by decide))).trans (W4_main_arg1 m ρ c),
     (h c _ (mem_uc main_arg2 (by decide))).trans (W4_main_arg2 m ρ c),
     (h c _ (mem_uc main_arg3 (by decide))).trans (W4_main_arg3 m ρ c),
     (h c _ (mem_uc main_arg4 (by decide))).trans (W4_main_arg4 m ρ c)⟩) (run_all m ρ)

/-- The run with the result named: the result array at the last boundary's contents, the arguments as launched. -/
theorem run_result : θ_run defs (onTc (τ := τ) (main (F := F))) ⟨m, fun _ => 0, ρ⟩ (fun r => ∀ c : Dev nD,
      r.2.mem ((c.tc : Thread nD τ).loc main_v15) = W4 m ρ c (Proc.devRef .tc main_v15)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c =>
    ⟨h c _ (mem_uc main_v15 (by decide)),
     (h c _ (mem_uc main_arg0 (by decide))).trans (W4_main_arg0 m ρ c),
     (h c _ (mem_uc main_arg1 (by decide))).trans (W4_main_arg1 m ρ c),
     (h c _ (mem_uc main_arg2 (by decide))).trans (W4_main_arg2 m ρ c),
     (h c _ (mem_uc main_arg3 (by decide))).trans (W4_main_arg3 m ρ c),
     (h c _ (mem_uc main_arg4 (by decide))).trans (W4_main_arg4 m ρ c)⟩) (run_all m ρ)

end Cert.KernelIdeal.Hand

end
-- ==== Proof.KIHost.lean ====
/-
  What the host operations between the kernel regions compute, over the extended reals, as whole-array terms.

  Before the first region the two weight matrices are narrowed from 32 to 16 bits: over the extended reals a change of
  format is the identity, so the narrowed arrays hold the launched entries, and the three activation arrays, which
  nothing writes, are as launched. Between the regions fifteen operations take the scores to the attention weights: the
  maximum over the batch axis (from minus infinity), its maximum with minus infinity, the difference, the exponential,
  its sum over the batch axis (from zero), the quotient, and a last narrowing — the softmax along the batch axis of
  whatever the first region left as scores. The third activation array is still as launched when the second region
  starts: the first region only reads it and no host operation writes it.
-/
import proofs.«103711_j49082886259369_1_alg».proof.Proof.KIRun
import proofs.«103711_j49082886259369_1_alg».proof.Proof.Spec
import Idealize.ShloMosaic.Lib.StableHlo.Run
import Idealize.ShloMosaic.Lib.ValueIdx

set_option maxRecDepth 16384

noncomputable section

namespace Cert.KernelIdeal.Hand

open Cert.KernelIdeal Cert.KernelIdeal.Gen
open Cert.KernelIdeal.Gen (hostOps0_writes hostOps1_writes hostOps0_W hostOps1_W)
open Idealize.ShloMosaic Idealize.ShloMosaic.TcCoe Idealize.ShloMosaic.ValueIdx
open Idealize.SL Idealize.SL.Sem
open Idealize.ShloMosaic.Pipeline (Dat)

variable (m : (ℓ : Loc nD τ sig) → Buf (Elt Ideal) ℓ) (ρ : Dev nD → PrngReg)

/-! ## Before the first region -/

/-- The activation arrays are as launched: the two narrowings write only the narrowed matrices. -/
theorem V1_arg0 (c : Dev nD) : V1 m ρ c main_arg0 = m ((c : Thread nD τ).loc main_arg0) :=
  StableHlo.after_of_writes_sub hostOps0 _ hostOps0_writes (by decide : main_arg0 ∉ hostOps0_W)
theorem V1_arg1 (c : Dev nD) : V1 m ρ c main_arg1 = m ((c : Thread nD τ).loc main_arg1) :=
  StableHlo.after_of_writes_sub hostOps0 _ hostOps0_writes (by decide : main_arg1 ∉ hostOps0_W)
theorem V1_arg2 (c : Dev nD) : V1 m ρ c main_arg2 = m ((c : Thread nD τ).loc main_arg2) :=
  StableHlo.after_of_writes_sub hostOps0 _ hostOps0_writes (by decide : main_arg2 ∉ hostOps0_W)

/-- The first narrowed matrix is the narrowing of the first launched weight matrix … -/
theorem V1_v0 (c : Dev nD) :
    @Eq (FVec Ideal S1024x1024 .bf16) (V1 m ρ c main_v0)
      (truncf .bf16 (m ((c : Thread nD τ).loc main_arg3) : FVec Ideal S1024x1024 .f32) bitsLt_bf16_f32) := by
  show StableHlo.after hostOps0 (W0 m ρ c) (Proc.devRef .tc main_v0) = _
  after_results

/-- … and the second of the second. -/
theorem V1_v1 (c : Dev nD) :
    @Eq (FVec Ideal S1024x1024 .bf16) (V1 m ρ c main_v1)
      (truncf .bf16 (m ((c : Thread nD τ).loc main_arg4) : FVec Ideal S1024x1024 .f32) bitsLt_bf16_f32) := by
  show StableHlo.after hostOps0 (W0 m ρ c) (Proc.devRef .tc main_v1) = _
  after_results

/-- Entry by entry the narrowed matrices hold the launched entries. -/
theorem V1_v0_apply (c : Dev nD) (j e : Fin 1024) :
    ((V1 m ρ c main_v0 : FVec Ideal S1024x1024 .bf16) (ix2 j e) : EReal)
      = ((m ((c : Thread nD τ).loc main_arg3) : FVec Ideal S1024x1024 .f32) (ix2 j e) : EReal) := by
  rw [V1_v0]; rfl
theorem V1_v1_apply (c : Dev nD) (j e : Fin 1024) :
    ((V1 m ρ c main_v1 : FVec Ideal S1024x1024 .bf16) (ix2 j e) : EReal)
      = ((m ((c : Thread nD τ).loc main_arg4) : FVec Ideal S1024x1024 .f32) (ix2 j e) : EReal) := by
  rw [V1_v1]; rfl

/-! ## Between the regions -/

/-- The third activation array is as launched when the second region starts. -/
theorem V3_arg2 (c : Dev nD) : V3 m ρ c main_arg2 = m ((c : Thread nD τ).loc main_arg2) :=
  calc W3 m ρ c (Proc.devRef .tc main_arg2)
    _ = W2 m ρ c (Proc.devRef .tc main_arg2) := StableHlo.after_of_writes_sub hostOps1 _ hostOps1_writes (by decide : main_arg2 ∉ hostOps1_W)
    _ = W1 m ρ c (Proc.devRef .tc main_arg2) := (W2_arr m ρ c 2).trans (((dat0 (V1 m ρ) c).arrAt_in 2 rfl _).trans (A_eq0 (V1 m ρ) c 2))
    _ = m ((c : Thread nD τ).loc main_arg2) := V1_arg2 m ρ c

/-- The fifteen operations, from any contents, leave in the last array the narrowing of the softmax along the batch
    axis of the scores array: composed, they are that term. -/
theorem softmax_chain (V : Valuation τ sig (Elt Ideal)) :
    (StableHlo.after hostOps1 V (Proc.devRef .tc main_v14) : FVec Ideal S8x1024x1024 .bf16)
      = truncf .bf16 (Cert.Spec.smax reducesTo_S8x1024x1024_S1024x1024_d0 h_S_ bcast_S_S1024x1024
          bcast_S1024x1024_S1x1024x1024_1_2 bcast_S1x1024x1024_S8x1024x1024_0_1_2
          (V (Proc.devRef .tc main_v2) : FVec Ideal S8x1024x1024 .f32)) bitsLt_bf16_f32 := by
  after_results
  rfl

/-- The attention weights the second region reads are, entry by entry, the softmax along the batch axis of the scores
    the first region left. -/
theorem V3_v14_apply (c : Dev nD) (b : Fin 8) (d e : Fin 1024) :
    ((V3 m ρ c main_v14 : FVec Ideal S8x1024x1024 .bf16) (ix3 b d e) : EReal)
      = (Cert.Spec.smax reducesTo_S8x1024x1024_S1024x1024_d0 h_S_ bcast_S_S1024x1024
          bcast_S1024x1024_S1x1024x1024_1_2 bcast_S1x1024x1024_S8x1024x1024_0_1_2
          (W2 m ρ c (Proc.devRef .tc main_v2) : FVec Ideal S8x1024x1024 .f32) (ix3 b d e) : EReal) := by
  show ((StableHlo.after hostOps1 (W2 m ρ c) (Proc.devRef .tc main_v14) : FVec Ideal S8x1024x1024 .bf16) (ix3 b d e) : EReal) = _
  rw [softmax_chain]; rfl

end Cert.KernelIdeal.Hand

end
-- ==== Proof.KIValue.lean ====
/-
  The idealized kernel's result, as one function of the launch memory's five argument arrays: the scores the first
  kernel leaves are the specification's scores (the two converted weight matrices are the weights themselves over the
  extended reals), the host's softmax chain between the regions is the specification's, and the second kernel's
  products of rows of v with the attention matrices are the specification's result.
-/
import proofs.«103711_j49082886259369_1_alg».proof.Proof.KIAcc
import proofs.«103711_j49082886259369_1_alg».proof.Proof.KIHost

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Facts₀ Cert.KernelIdeal.Facts

open Idealize.ShloMosaic.ValueIdx Cert.KernelIdeal.PayVal
open scoped BigOperators

variable (m : (ℓ : Loc nD τ sig) → Buf (Elt Ideal) ℓ) (ρ : Dev nD → PrngReg)

/-- The scores array after the first region is the specification's. -/
theorem scores_spec (c : Dev nD) :
    (W2 m ρ c (Proc.devRef .tc main_v2) : FVec Ideal S8x1024x1024 .f32)
      = Cert.Spec.scoreV (m ((c : Thread nD τ).loc main_arg0)) (m ((c : Thread nD τ).loc main_arg1)) (m ((c : Thread nD τ).loc main_arg2)) (m ((c : Thread nD τ).loc main_arg3)) (m ((c : Thread nD τ).loc main_arg4)) := by
  rw [show W2 m ρ c (Proc.devRef .tc main_v2) = (dat0 (V1 m ρ) c).arrAt 5 cfg0.N from W2_arr m ρ c 5, scores_final,
    V1_arg0, V1_arg1, V1_arg2]
  exact scoresE_eq _ _ _ _ _ _ _ (V1_v0_apply m ρ c) (V1_v1_apply m ρ c)

/-- The result array after the second region is the specification's function of the arguments. -/
theorem result_spec (c : Dev nD) :
    (W4 m ρ c (Proc.devRef .tc main_v15) : FVec Ideal S8x2048x1024 .f32)
      = Cert.Spec.G Gen.reducesTo_S8x1024x1024_S1024x1024_d0 Gen.h_S_ Gen.bcast_S_S1024x1024 Gen.bcast_S1024x1024_S1x1024x1024_1_2 Gen.bcast_S1x1024x1024_S8x1024x1024_0_1_2 (m ((c : Thread nD τ).loc main_arg0)) (m ((c : Thread nD τ).loc main_arg1)) (m ((c : Thread nD τ).loc main_arg2)) (m ((c : Thread nD τ).loc main_arg3)) (m ((c : Thread nD τ).loc main_arg4)) := by
  rw [show W4 m ρ c (Proc.devRef .tc main_v15) = (dat1 (V3 m ρ) c).arrAt 2 cfg1.N from W4_arr m ρ c 2, result_final, V3_arg2]
  rw [resultE_eq _ _ (Cert.Spec.smax Gen.reducesTo_S8x1024x1024_S1024x1024_d0 Gen.h_S_ Gen.bcast_S_S1024x1024 Gen.bcast_S1024x1024_S1x1024x1024_1_2 Gen.bcast_S1x1024x1024_S8x1024x1024_0_1_2 (Cert.Spec.scoreV (m ((c : Thread nD τ).loc main_arg0)) (m ((c : Thread nD τ).loc main_arg1)) (m ((c : Thread nD τ).loc main_arg2)) (m ((c : Thread nD τ).loc main_arg3)) (m ((c : Thread nD τ).loc main_arg4))))
    (fun b d e => (V3_v14_apply m ρ c b d e).trans (by rw [scores_spec]))]
  rfl

/-- The idealized kernel's run, with the result named by the specification. -/
theorem run_spec : θ_run defs (onTc (τ := τ) (main (F := Ideal))) ⟨m, fun _ => 0, ρ⟩ (fun r => ∀ c : Dev nD,
      r.2.mem ((c.tc : Thread nD τ).loc main_v15) = Cert.Spec.G Gen.reducesTo_S8x1024x1024_S1024x1024_d0 Gen.h_S_ Gen.bcast_S_S1024x1024 Gen.bcast_S1024x1024_S1x1024x1024_1_2 Gen.bcast_S1x1024x1024_S8x1024x1024_0_1_2 (m ((c : Thread nD τ).loc main_arg0)) (m ((c : Thread nD τ).loc main_arg1)) (m ((c : Thread nD τ).loc main_arg2)) (m ((c : Thread nD τ).loc main_arg3)) (m ((c : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c => ⟨(h c).1.trans (result_spec m ρ c), (h c).2⟩) (run_result m ρ)

end Cert.KernelIdeal.Hand

end
-- ==== Proof.RefSpec.lean ====
/-
  The reference's run, read one operation at a time at an index, is the specification's function of the argument arrays.
-/
import proofs.«103711_j49082886259369_1_alg».proof.Proof.Gen.ReferenceIdeal.Read
import proofs.«103711_j49082886259369_1_alg».proof.Proof.Spec

noncomputable section

open scoped BigOperators

namespace Cert.ReferenceIdeal.RefValue

open Cert.ReferenceIdeal Cert.ReferenceIdeal.Gen Cert.ReferenceIdeal.Read Idealize.ShloMosaic Idealize.ShloMosaic.ValueIdx

/-! ## The activations and the scores -/

/-- The hyperbolic tangent of the two projections' sum, read at an index: the first projection contracts the last
    axis of k with the first of W, the second the last axis of q with the first of U. -/
theorem fac_eq (q k : FVec Ideal S8x2048x1024 .f32) (W U : FVec Ideal S1024x1024 .f32)
    (b : Fin 8) (s : Fin 2048) (e : Fin 1024) :
    val_main_v3 (F := Ideal) q k W U (ix3 b s e) = Cert.Spec.fac q k W U b s e := by
  have el0 : ∀ d : Fin 1024, lidx_main_v0 (ix3 b s e) d = ix3 b s d := fun d =>
    funext fun a => Fin.ext (by match a with | ⟨0, _⟩ => rfl | ⟨1, _⟩ => rfl | ⟨2, _⟩ => rfl)
  have er0 : ∀ d : Fin 1024, ridx_main_v0 (ix3 b s e) d = ix2 d e := fun d =>
    funext fun a => Fin.ext (by match a with | ⟨0, _⟩ => rfl | ⟨1, _⟩ => rfl)
  have el1 : ∀ d : Fin 1024, lidx_main_v1 (ix3 b s e) d = ix3 b s d := fun d =>
    funext fun a => Fin.ext (by match a with | ⟨0, _⟩ => rfl | ⟨1, _⟩ => rfl | ⟨2, _⟩ => rfl)
  have er1 : ∀ d : Fin 1024, ridx_main_v1 (ix3 b s e) d = ix2 d e := fun d =>
    funext fun a => Fin.ext (by match a with | ⟨0, _⟩ => rfl | ⟨1, _⟩ => rfl)
  rw [val_main_v3_apply, val_main_v2_apply, val_main_v0_apply, val_main_v1_apply]
  simp only [el0, er0, el1, er1, Ideal.hostUnary_tanh_def, Ideal.addf_def]
  rfl

/-- The rows of v against the activations, contracted over the 2048 rows, are the specification's scores. -/
theorem scores_eq (q k v : FVec Ideal S8x2048x1024 .f32) (W U : FVec Ideal S1024x1024 .f32) :
    val_main_v4 (F := Ideal) q k v W U = Cert.Spec.scoreV q k v W U := by
  funext j
  obtain ⟨b, d, e, rfl⟩ : ∃ (b : Fin 8) (d e : Fin 1024), j = ix3 b d e := ⟨j 0, j 1, j 2, eq_ix3 j⟩
  have el : ∀ s : Fin 2048, lidx_main_v4 (ix3 b d e) s = ix3 b s d := fun s =>
    funext fun a => Fin.ext (by match a with | ⟨0, _⟩ => rfl | ⟨1, _⟩ => rfl | ⟨2, _⟩ => rfl)
  have er : ∀ s : Fin 2048, ridx_main_v4 (ix3 b d e) s = ix3 b s e := fun s =>
    funext fun a => Fin.ext (by match a with | ⟨0, _⟩ => rfl | ⟨1, _⟩ => rfl | ⟨2, _⟩ => rfl)
  rw [val_main_v4_apply]
  simp only [el, er, fac_eq]
  rfl

/-! ## The softmax along the batch axis -/

/-- The chain of host operations the program applies to the scores (maximum over the batch, its maximum with minus
    infinity, subtraction, exponential, sum over the batch, quotient) is the specification's softmax, whatever the
    scores are: the two are the same term. -/
theorem smax_chain (s : FVec Ideal S8x1024x1024 .f32) :
    Host.divf (Host.exp (subf s (broadcastInDim S8x1024x1024 ![0, 1, 2] bcast_S1x1024x1024_S8x1024x1024_0_1_2 (broadcastInDim S1x1024x1024 ![1, 2] bcast_S1024x1024_S1x1024x1024_1_2 (maximumf (broadcastInDim S1024x1024 ![] bcast_S_S1024x1024 (constant (F := Ideal) S_ .f32 0xFF800000#32)) (Host.reduce FloatOps.maximumf s (constant (F := Ideal) S_ .f32 0xFF800000#32) reducesTo_S8x1024x1024_S1024x1024_d0 h_S_)))))) (broadcastInDim S8x1024x1024 ![0, 1, 2] bcast_S1x1024x1024_S8x1024x1024_0_1_2 (broadcastInDim S1x1024x1024 ![1, 2] bcast_S1024x1024_S1x1024x1024_1_2 (Host.reduceAdd (Host.exp (subf s (broadcastInDim S8x1024x1024 ![0, 1, 2] bcast_S1x1024x1024_S8x1024x1024_0_1_2 (broadcastInDim S1x1024x1024 ![1, 2] bcast_S1024x1024_S1x1024x1024_1_2 (maximumf (broadcastInDim S1024x1024 ![] bcast_S_S1024x1024 (constant (F := Ideal) S_ .f32 0xFF800000#32)) (Host.reduce FloatOps.maximumf s (constant (F := Ideal) S_ .f32 0xFF800000#32) reducesTo_S8x1024x1024_S1024x1024_d0 h_S_)))))) (constant (F := Ideal) S_ .f32 0x00000000#32) reducesTo_S8x1024x1024_S1024x1024_d0 h_S_)))
      = Cert.Spec.smax reducesTo_S8x1024x1024_S1024x1024_d0 h_S_ bcast_S_S1024x1024 bcast_S1024x1024_S1x1024x1024_1_2 bcast_S1x1024x1024_S8x1024x1024_0_1_2 s := rfl

/-- The attention weights are the softmax of the scores. -/
theorem attn_eq (q k v : FVec Ideal S8x2048x1024 .f32) (W U : FVec Ideal S1024x1024 .f32) :
    val_main_v15 (F := Ideal) q k v W U = Cert.Spec.smax reducesTo_S8x1024x1024_S1024x1024_d0 h_S_ bcast_S_S1024x1024 bcast_S1024x1024_S1x1024x1024_1_2 bcast_S1x1024x1024_S8x1024x1024_0_1_2 (Cert.Spec.scoreV q k v W U) := by
  unfold val_main_v15 val_main_v14 val_main_v13 val_main_v12 val_main_v11 val_main_v10 val_main_v9 val_main_v8 val_main_v7
    val_main_v6 val_main_v5 val_main_cst val_main_cst_0 val_main_cst_1
  rw [scores_eq]
  exact smax_chain _

/-! ## The result -/

/-- The rows of v against any weights a, contracted over v's last axis and a's middle axis, read at an index. -/
theorem out_sum (v : FVec Ideal S8x2048x1024 .f32) (a : FVec Ideal S8x1024x1024 .f32) (i : S8x2048x1024.Idx) :
    (∑ d : Fin 1024, v (lidx_main_v16 i d) * a (ridx_main_v16 i d)) = Cert.Spec.out v a (i 0) (i 1) (i 2) := by
  obtain ⟨b, s, e, rfl⟩ : ∃ (b : Fin 8) (s : Fin 2048) (e : Fin 1024), i = ix3 b s e := ⟨i 0, i 1, i 2, eq_ix3 i⟩
  have el : ∀ d : Fin 1024, lidx_main_v16 (ix3 b s e) d = ix3 b s d := fun d =>
    funext fun a => Fin.ext (by match a with | ⟨0, _⟩ => rfl | ⟨1, _⟩ => rfl | ⟨2, _⟩ => rfl)
  have er : ∀ d : Fin 1024, ridx_main_v16 (ix3 b s e) d = ix3 b d e := fun d =>
    funext fun a => Fin.ext (by match a with | ⟨0, _⟩ => rfl | ⟨1, _⟩ => rfl | ⟨2, _⟩ => rfl)
  simp only [el, er]
  rfl

/-- The reference's last stage is the specification's function of the five argument arrays. -/
theorem result_val_eq (q k v : FVec Ideal S8x2048x1024 .f32) (W U : FVec Ideal S1024x1024 .f32) :
    val_main_v16 (F := Ideal) q k v W U = Cert.Spec.G reducesTo_S8x1024x1024_S1024x1024_d0 h_S_ bcast_S_S1024x1024 bcast_S1024x1024_S1x1024x1024_1_2 bcast_S1x1024x1024_S8x1024x1024_0_1_2 q k v W U := by
  funext i
  rw [val_main_v16_apply, attn_eq]
  exact out_sum v _ i

/-- The reference's result, as the one composed term of its arguments, is the specification's function of them. -/
theorem result_eq (q k v : FVec Ideal S8x2048x1024 .f32) (W U : FVec Ideal S1024x1024 .f32) :
    Host.dotGeneral dot_S8x2048x1024_S8x1024x1024_S8x2048x1024_2_1_1_2_0_0 none v (Host.divf (Host.exp (subf (Host.dotGeneral dot_S8x2048x1024_S8x2048x1024_S8x1024x1024_1_1_2_2_0_0 none v (Host.tanh (addf (Host.dotGeneral dot_S8x2048x1024_S1024x1024_S8x2048x1024_2_0_01_1_n_n none k W) (Host.dotGeneral dot_S8x2048x1024_S1024x1024_S8x2048x1024_2_0_01_1_n_n none q U)))) (broadcastInDim S8x1024x1024 ![0, 1, 2] bcast_S1x1024x1024_S8x1024x1024_0_1_2 (broadcastInDim S1x1024x1024 ![1, 2] bcast_S1024x1024_S1x1024x1024_1_2 (maximumf (broadcastInDim S1024x1024 ![] bcast_S_S1024x1024 (constant (F := Ideal) S_ .f32 0xFF800000#32)) (Host.reduce FloatOps.maximumf (Host.dotGeneral dot_S8x2048x1024_S8x2048x1024_S8x1024x1024_1_1_2_2_0_0 none v (Host.tanh (addf (Host.dotGeneral dot_S8x2048x1024_S1024x1024_S8x2048x1024_2_0_01_1_n_n none k W) (Host.dotGeneral dot_S8x2048x1024_S1024x1024_S8x2048x1024_2_0_01_1_n_n none q U)))) (constant (F := Ideal) S_ .f32 0xFF800000#32) reducesTo_S8x1024x1024_S1024x1024_d0 h_S_)))))) (broadcastInDim S8x1024x1024 ![0, 1, 2] bcast_S1x1024x1024_S8x1024x1024_0_1_2 (broadcastInDim S1x1024x1024 ![1, 2] bcast_S1024x1024_S1x1024x1024_1_2 (Host.reduceAdd (Host.exp (subf (Host.dotGeneral dot_S8x2048x1024_S8x2048x1024_S8x1024x1024_1_1_2_2_0_0 none v (Host.tanh (addf (Host.dotGeneral dot_S8x2048x1024_S1024x1024_S8x2048x1024_2_0_01_1_n_n none k W) (Host.dotGeneral dot_S8x2048x1024_S1024x1024_S8x2048x1024_2_0_01_1_n_n none q U)))) (broadcastInDim S8x1024x1024 ![0, 1, 2] bcast_S1x1024x1024_S8x1024x1024_0_1_2 (broadcastInDim S1x1024x1024 ![1, 2] bcast_S1024x1024_S1x1024x1024_1_2 (maximumf (broadcastInDim S1024x1024 ![] bcast_S_S1024x1024 (constant (F := Ideal) S_ .f32 0xFF800000#32)) (Host.reduce FloatOps.maximumf (Host.dotGeneral dot_S8x2048x1024_S8x2048x1024_S8x1024x1024_1_1_2_2_0_0 none v (Host.tanh (addf (Host.dotGeneral dot_S8x2048x1024_S1024x1024_S8x2048x1024_2_0_01_1_n_n none k W) (Host.dotGeneral dot_S8x2048x1024_S1024x1024_S8x2048x1024_2_0_01_1_n_n none q U)))) (constant (F := Ideal) S_ .f32 0xFF800000#32) reducesTo_S8x1024x1024_S1024x1024_d0 h_S_)))))) (constant (F := Ideal) S_ .f32 0x00000000#32) reducesTo_S8x1024x1024_S1024x1024_d0 h_S_))))
      = Cert.Spec.G reducesTo_S8x1024x1024_S1024x1024_d0 h_S_ bcast_S_S1024x1024 bcast_S1024x1024_S1x1024x1024_1_2 bcast_S1x1024x1024_S8x1024x1024_0_1_2 q k v W U :=
  (val_main_v16_eq (F := Ideal) q k v W U).trans (result_val_eq q k v W U)

end Cert.ReferenceIdeal.RefValue

end
-- ==== Proof.lean ====
/-
  Additive tanh attention with the softmax taken along the batch axis: the kernel program against its reference.

  Over the extended reals both programs compute one function of q, k, v : [8, 2048, 1024] and W, U : [1024, 1024]:
  fac = tanh(k W + q U); score[b] = v[b]ᵀ fac[b], a contraction over the 2048 rows; attn = softmax of score along b;
  out[b] = v[b] attn[b]. The kernel program takes the contraction in eight blocks of 256 rows, carried in an
  accumulator that restarts with every batch and added up block after block from zero; sums of extended reals may be
  regrouped freely, so the blocks' sum is the whole sum and no finiteness of the inputs is used. Its changes of float
  format are the identity over the extended reals, its matrix products into a zero accumulator are plain sums, and the
  softmax between its two kernels is the reference's own chain of host operations. The reference's run is read back
  operation by operation as the same function.

  The three frames: each program runs to the end from any memory, faults nowhere, and leaves its five argument arrays
  as launched — for the two kernel programs through the two host stretches and the two pipelined regions in order, the
  first region's invariant carrying the accumulator from grid point to grid point; for the reference from its run. The
  ideal pass rewrote nothing, so the kernel program's idealization is its own text read over the extended reals.
-/
import proofs.«103711_j49082886259369_1_alg».proof.Defs
import proofs.«103711_j49082886259369_1_alg».proof.Proof.KBRun
import proofs.«103711_j49082886259369_1_alg».proof.Proof.KIValue
import proofs.«103711_j49082886259369_1_alg».proof.Proof.RefSpec
import proofs.«103711_j49082886259369_1_alg».proof.Proof.Gen.Pre_finite_inputs

noncomputable section

namespace Cert.Proof

open Idealize.ShloMosaic Idealize.ShloMosaic.TcCoe Idealize.SL.Sem

/-- The word-level kernel program runs and keeps its arguments. -/
theorem frame_k : Cert.frame_Kernel (hKernel := Cert.Kernel.Gen.facts) (hPre_finite_inputs := Cert.Pre_finite_inputs.Gen.facts) :=
  fun m ρ _ => Cert.Kernel.Hand.frame m ρ

/-- The idealized kernel program runs and keeps its arguments. -/
theorem frame_ki : Cert.frame_KernelIdeal (hKernelIdeal := Cert.KernelIdeal.Gen.facts) (hPre_finite_inputs := Cert.Pre_finite_inputs.Gen.facts) :=
  fun m ρ _ => Cert.KernelIdeal.Hand.frame m ρ

/-- The reference runs and keeps its arguments: its run with the result dropped. -/
theorem frame_ri : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.ReferenceIdeal.Value.run (F := Ideal) m ρ)

/-- From memories that agree on the arguments both idealized programs end with the specification's function of them. -/
theorem algebraic : Cert.algebraic_KernelIdeal_ReferenceIdeal (hKernelIdeal := Cert.KernelIdeal.Gen.facts) (hReferenceIdeal := Cert.ReferenceIdeal.Gen.facts) (hPre_finite_inputs := Cert.Pre_finite_inputs.Gen.facts) := by
  intro m ρ m' ρ' _ hagree
  refine ⟨fun c => Cert.Spec.G Cert.KernelIdeal.Gen.reducesTo_S8x1024x1024_S1024x1024_d0 Cert.KernelIdeal.Gen.h_S_ Cert.KernelIdeal.Gen.bcast_S_S1024x1024 Cert.KernelIdeal.Gen.bcast_S1024x1024_S1x1024x1024_1_2 Cert.KernelIdeal.Gen.bcast_S1x1024x1024_S8x1024x1024_0_1_2 (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)),
    Cert.KernelIdeal.Hand.run_spec m ρ, ?_⟩
  refine (θ_run Cert.ReferenceIdeal.defs _ _).mono (fun _ h c => ⟨?_, (h c).2⟩) (Cert.ReferenceIdeal.Value.run (F := Ideal) m' ρ')
  rw [(h c).1, Cert.ReferenceIdeal.RefValue.result_eq, (hagree c).1, (hagree c).2.1, (hagree c).2.2.1, (hagree c).2.2.2.1, (hagree c).2.2.2.2]

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
